-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S200000x64 : Shape := ⟨2, ![200000, 64]⟩
abbrev S100000x64 : Shape := ⟨2, ![100000, 64]⟩
abbrev S66x256 : Shape := ⟨2, ![66, 256]⟩
abbrev S256 : Shape := ⟨1, ![256]⟩
abbrev S256x128 : Shape := ⟨2, ![256, 128]⟩
abbrev S128 : Shape := ⟨1, ![128]⟩
abbrev S192x256 : Shape := ⟨2, ![192, 256]⟩
abbrev S2000000 : Shape := ⟨1, ![2000000]⟩
abbrev S100000 : Shape := ⟨1, ![100000]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S66x256 : S_.BroadcastsInDim S66x256 (![] : Fin 0 → Fin S66x256.rank)
  reducesTo_S66x256_S_d0_1 : S66x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S192x256 : S_.BroadcastsInDim S192x256 (![] : Fin 0 → Fin S192x256.rank)
  reducesTo_S192x256_S_d0_1 : S192x256.ReducesTo [0, 1] S_
  bcast_S_S2000000 : S_.BroadcastsInDim S2000000 (![] : Fin 0 → Fin S2000000.rank)
  reducesTo_S2000000_S_d0 : S2000000.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg13 : IVec S100000 32) (main_v65 : IVec S_ 1) (main_v66 : IVec S100000 32) : IVec S_ 1 :=
  let main_v67 : IVec S100000 1 := cmpi .slt main_arg13 main_v66
  let main_c_27 : IVec S_ 1 := constantI S_ 1 1#1
  let main_v68 : IVec S_ 1 := (fun x v => Host.reduce IntOp.andi x v reducesTo_S100000_S_d0 h_S_) main_v67 main_c_27
  let main_v69 : IVec S_ 1 := andi main_v65 main_v68
  main_v69

def fn_part3 {F : FTy → Type} [FloatOps F] (main_arg11 : IVec S2000000 32) (main_arg13 : IVec S100000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2000000 32 := broadcastInDim S2000000 ![] bcast_S_S2000000 main_c_20
  let main_v55 : IVec S2000000 1 := cmpi .sge main_arg11 main_v54
  let main_c_21 : IVec S_ 1 := constantI S_ 1 1#1
  let main_v56 : IVec S_ 1 := (fun x v => Host.reduce IntOp.andi x v reducesTo_S2000000_S_d0 h_S_) main_v55 main_c_21
  let main_v57 : IVec S_ 1 := andi main_v53 main_v56
  let main_c_22 : IVec S_ 32 := constantI S_ 32 200000#32
  let main_v58 : IVec S2000000 32 := broadcastInDim S2000000 ![] bcast_S_S2000000 main_c_22
  let main_v59 : IVec S2000000 1 := cmpi .slt main_arg11 main_v58
  let main_c_23 : IVec S_ 1 := constantI S_ 1 1#1
  let main_v60 : IVec S_ 1 := (fun x v => Host.reduce IntOp.andi x v reducesTo_S2000000_S_d0 h_S_) main_v59 main_c_23
  let main_v61 : IVec S_ 1 := andi main_v57 main_v60
  let main_c_24 : IVec S_ 32 := constantI S_ 32 0#32
  let main_v62 : IVec S100000 32 := broadcastInDim S100000 ![] bcast_S_S100000 main_c_24
  let main_v63 : IVec S100000 1 := cmpi .sge main_arg13 main_v62
  let main_c_25 : IVec S_ 1 := constantI S_ 1 1#1
  let main_v64 : IVec S_ 1 := (fun x v => Host.reduce IntOp.andi x v reducesTo_S100000_S_d0 h_S_) main_v63 main_c_25
  let main_v65 : IVec S_ 1 := andi main_v61 main_v64
  let main_c_26 : IVec S_ 32 := constantI S_ 32 100000#32
  let main_v66 : IVec S100000 32 := broadcastInDim S100000 ![] bcast_S_S100000 main_c_26
  fn_part4 (F := F) main_arg13 main_v65 main_v66

def fn_part2 {F : FTy → Type} [FloatOps F] (main_arg7 : FVec F S192x256 .f32) (main_arg8 : FVec F S256 .f32) (main_arg9 : FVec F S256x128 .f32) (main_arg10 : FVec F S128 .f32) (main_arg11 : IVec S2000000 32) (main_arg13 : IVec S100000 32) (main_v33 : IVec S_ 1) : IVec S_ 1 :=
  let main_v34 : FVec F S192x256 .f32 := Host.absf main_arg7
  let main_cst_12 : FVec F S_ .f32 := constant S_ .f32 0x7F800000#32
  let main_v35 : FVec F S192x256 .f32 := broadcastInDim S192x256 ![] bcast_S_S192x256 main_cst_12
  let main_v36 : IVec S192x256 1 := cmpf .olt main_v34 main_v35
  let main_c_13 : IVec S_ 1 := constantI S_ 1 1#1
  let main_v37 : IVec S_ 1 := (fun x v => Host.reduce IntOp.andi x v reducesTo_S192x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg13 main_v48 main_v49 main_v50

def fn_part1 {F : FTy → Type} [FloatOps F] (main_arg4 : FVec F S256 .f32) (main_arg5 : FVec F S256x128 .f32) (main_arg6 : FVec F S128 .f32) (main_arg7 : FVec F S192x256 .f32) (main_arg8 : FVec F S256 .f32) (main_arg9 : FVec F S256x128 .f32) (main_arg10 : FVec F S128 .f32) (main_arg11 : IVec S2000000 32) (main_arg13 : IVec S100000 32) (main_v13 : IVec S_ 1) (main_v16 : IVec S66x256 1) : IVec S_ 1 :=
  let main_c_5 : IVec S_ 1 := constantI S_ 1 1#1
  let main_v17 : IVec S_ 1 := (fun x v => Host.reduce IntOp.andi x v reducesTo_S66x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg13 main_v33

def fn {F : FTy → Type} [FloatOps F] (main_arg0 : FVec F S200000x2 .f32) (main_arg1 : FVec F S200000x64 .f32) (main_arg2 : FVec F S100000x64 .f32) (main_arg3 : FVec F S66x256 .f32) (main_arg4 : FVec F S256 .f32) (main_arg5 : FVec F S256x128 .f32) (main_arg6 : FVec F S128 .f32) (main_arg7 : FVec F S192x256 .f32) (main_arg8 : FVec F S256 .f32) (main_arg9 : FVec F S256x128 .f32) (main_arg10 : FVec F S128 .f32) (main_arg11 : IVec S2000000 32) (main_arg12 : IVec S2000000 32) (main_arg13 : IVec S100000 32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S66x256 .f32 := Host.absf main_arg3
  let main_cst_4 : FVec F S_ .f32 := constant S_ .f32 0x7F800000#32
  let main_v15 : FVec F S66x256 .f32 := broadcastInDim S66x256 ![] bcast_S_S66x256 main_cst_4
  let main_v16 : IVec S66x256 1 := cmpf .olt main_v14 main_v15
  fn_part1 (F := F) main_arg4 main_arg5 main_arg6 main_arg7 main_arg8 main_arg9 main_arg10 main_arg11 main_arg13 main_v13 main_v16
-- ==== Kernel.lean ====
abbrev S200000x2 : Shape := ⟨2, ![200000, 2]⟩
abbrev S200000x64 : Shape := ⟨2, ![200000, 64]⟩
abbrev S100000x64 : Shape := ⟨2, ![100000, 64]⟩
abbrev S66x256 : Shape := ⟨2, ![66, 256]⟩
abbrev S256 : Shape := ⟨1, ![256]⟩
abbrev S256x128 : Shape := ⟨2, ![256, 128]⟩
abbrev S128 : Shape := ⟨1, ![128]⟩
abbrev S192x256 : Shape := ⟨2, ![192, 256]⟩
abbrev S2000000 : Shape := ⟨1, ![2000000]⟩
abbrev S100000 : Shape := ⟨1, ![100000]⟩
abbrev S200000x128 : Shape := ⟨2, ![200000, 128]⟩
abbrev S2000x2 : Shape := ⟨2, ![2000, 2]⟩
abbrev S2000x64 : Shape := ⟨2, ![2000, 64]⟩
abbrev S2000x128 : Shape := ⟨2, ![2000, 128]⟩
abbrev S2000x66 : Shape := ⟨2, ![2000, 66]⟩
abbrev S2000x256 : Shape := ⟨2, ![2000, 256]⟩
abbrev S1x256 : Shape := ⟨2, ![1, 256]⟩
abbrev S1x128 : Shape := ⟨2, ![1, 128]⟩
abbrev S2000 : Shape := ⟨1, ![2000]⟩
abbrev S2000x1 : Shape := ⟨2, ![2000, 1]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x128 : Shape := ⟨2, ![2000000, 128]⟩
abbrev S100000x128 : Shape := ⟨2, ![100000, 128]⟩
abbrev S100000x1 : Shape := ⟨2, ![100000, 1]⟩
abbrev S2000x192 : Shape := ⟨2, ![2000, 192]⟩

abbrev nBuf : Space → Nat
  | .hbm => 101
  | .vmem => 20
  | .smem => 0
  | _ => 0

abbrev bufTy : (tb : Table) → Fin (tcTables nBuf tb) → BufTy
  | .hbm, ⟨0, _⟩ => ⟨S200000x2, .f32⟩
  | .hbm, ⟨1, _⟩ => ⟨S200000x64, .f32⟩
  | .hbm, ⟨2, _⟩ => ⟨S100000x64, .f32⟩
  | .hbm, ⟨3, _⟩ => ⟨S66x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S192x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S2000000, .i32⟩
  | .hbm, ⟨12, _⟩ => ⟨S2000000, .i32⟩
  | .hbm, ⟨13, _⟩ => ⟨S100000, .i32⟩
  | .hbm, ⟨14, _⟩ => ⟨S200000x128, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S1, .i32⟩
  | .hbm, ⟨24, _⟩ => ⟨S_, .i32⟩
  | .hbm, ⟨25, _⟩ => ⟨S2000000x1, .i32⟩
  | .hbm, ⟨26, _⟩ => ⟨S2000000x1, .i1⟩
  | .hbm, ⟨27, _⟩ => ⟨S1x1, .i32⟩
  | .hbm, ⟨28, _⟩ => ⟨S2000000x1, .i32⟩
  | .hbm, ⟨29, _⟩ => ⟨S2000000x1, .i1⟩
  | .hbm, ⟨30, _⟩ => ⟨S2000000x1, .i1⟩
  | .hbm, ⟨31, _⟩ => ⟨S_, .i1⟩
  | .hbm, ⟨32, _⟩ => ⟨S2000000, .i1⟩
  | .hbm, ⟨33, _⟩ => ⟨S2000000x128, .f32⟩
  | .hbm, ⟨34, _⟩ => ⟨S2000000x128, .i1⟩
  | .hbm, ⟨35, _⟩ => ⟨S_, .f32⟩
  | .hbm, ⟨36, _⟩ => ⟨S2000000x128, .f32⟩
  | .hbm, ⟨37, _⟩ => ⟨S2000000x128, .f32⟩
  | .hbm, ⟨38, _⟩ => ⟨S_, .f32⟩
  | .hbm, ⟨39, _⟩ => ⟨S100000x128, .f32⟩
  | .hbm, ⟨40, _⟩ => ⟨S2000000x1, .i32⟩
  | .hbm, ⟨41, _⟩ => ⟨S100000x128, .f32⟩
  | .hbm, ⟨42, _⟩ => ⟨S_, .f32⟩
  | .hbm, ⟨43, _⟩ => ⟨S2000000, .f32⟩
  | .hbm, ⟨44, _⟩ => ⟨S_, .f32⟩
  | .hbm, ⟨45, _⟩ => ⟨S100000, .f32⟩
  | .hbm, ⟨46, _⟩ => ⟨S2000000x1, .i32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S_, .i32⟩
  | .hbm, ⟨58, _⟩ => ⟨S100000, .i32⟩
  | .hbm, ⟨59, _⟩ => ⟨S100000, .i32⟩
  | .hbm, ⟨60, _⟩ => ⟨S100000, .i32⟩
  | .hbm, ⟨61, _⟩ => ⟨S100000x1, .i32⟩
  | .hbm, ⟨62, _⟩ => ⟨S1, .i32⟩
  | .hbm, ⟨63, _⟩ => ⟨S_, .i32⟩
  | .hbm, ⟨64, _⟩ => ⟨S100000x1, .i32⟩
  | .hbm, ⟨65, _⟩ => ⟨S100000x1, .i1⟩
  | .hbm, ⟨66, _⟩ => ⟨S1x1, .i32⟩
  | .hbm, ⟨67, _⟩ => ⟨S100000x1, .i32⟩
  | .hbm, ⟨68, _⟩ => ⟨S100000x1, .i1⟩
  | .hbm, ⟨69, _⟩ => ⟨S100000x1, .i1⟩
  | .hbm, ⟨70, _⟩ => ⟨S_, .i1⟩
  | .hbm, ⟨71, _⟩ => ⟨S100000, .i1⟩
  | .hbm, ⟨72, _⟩ => ⟨S100000x64, .f32⟩
  | .hbm, ⟨73, _⟩ => ⟨S100000x64, .i1⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S1, .i32⟩
  | .hbm, ⟨86, _⟩ => ⟨S_, .i32⟩
  | .hbm, ⟨87, _⟩ => ⟨S100000x1, .i32⟩
  | .hbm, ⟨88, _⟩ => ⟨S100000x1, .i1⟩
  | .hbm, ⟨89, _⟩ => ⟨S1x1, .i32⟩
  | .hbm, ⟨90, _⟩ => ⟨S100000x1, .i32⟩
  | .hbm, ⟨91, _⟩ => ⟨S100000x1, .i1⟩
  | .hbm, ⟨92, _⟩ => ⟨S100000x1, .i1⟩
  | .hbm, ⟨93, _⟩ => ⟨S_, .i1⟩
  | .hbm, ⟨94, _⟩ => ⟨S100000, .i1⟩
  | .hbm, ⟨95, _⟩ => ⟨S100000x128, .f32⟩
  | .hbm, ⟨96, _⟩ => ⟨S100000x128, .i1⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x128, .f32⟩
  | .local _ .vmem, ⟨0, _⟩ => ⟨S2000x2, .f32⟩
  | .local _ .vmem, ⟨1, _⟩ => ⟨S2000x2, .f32⟩
  | .local _ .vmem, ⟨2, _⟩ => ⟨S2000x64, .f32⟩
  | .local _ .vmem, ⟨3, _⟩ => ⟨S2000x64, .f32⟩
  | .local _ .vmem, ⟨4, _⟩ => ⟨S66x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x64, .f32⟩
  | .local _ .vmem, ⟨11, _⟩ => ⟨S2000x64, .f32⟩
  | .local _ .vmem, ⟨12, _⟩ => ⟨S2000x128, .f32⟩
  | .local _ .vmem, ⟨13, _⟩ => ⟨S2000x128, .f32⟩
  | .local _ .vmem, ⟨14, _⟩ => ⟨S192x256, .f32⟩
  | .local _ .vmem, ⟨15, _⟩ => ⟨S256, .f32⟩
  | .local _ .vmem, ⟨16, _⟩ => ⟨S256x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v1 : Ref sig .tc := ⟨.hbm, 37, rfl⟩
abbrev main_cst : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst_0 : Ref sig .tc := ⟨.hbm, 42, rfl⟩
abbrev main_v5 : Ref sig .tc := ⟨.hbm, 43, rfl⟩
abbrev main_cst_1 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst_2 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v14 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v15 : Ref sig .tc := ⟨.hbm, 99, rfl⟩
abbrev main_v16 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S66x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S2000x2_S2000x2_0_0 : ∀ a, (![0, 0] : Fin 2 → Nat) a + S2000x2.size a ≤ S2000x2.size a
  h_S2000x2 : 0 < S2000x2.numel
  inb_S2000x64_S2000x64_0_0 : ∀ a, (![0, 0] : Fin 2 → Nat) a + S2000x64.size a ≤ S2000x64.size a
  h_S2000x64 : 0 < S2000x64.numel
  concatenates_S2000x2_S2000x64_S2000x66_d1 : Shape.Concatenates [S2000x2, S2000x64] S2000x66 1
  bitsLt_bf16_f32 : FTy.bits .bf16 < FTy.bits .f32
  inb_S66x256_S66x256_0_0 : ∀ a, (![0, 0] : Fin 2 → Nat) a + S66x256.size a ≤ S66x256.size a
  h_S66x256 : 0 < S66x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x128_0 : S2000000.BroadcastsInDim S2000000x128 (![0] : Fin 1 → Fin S2000000x128.rank)
  bcast_S_S2000000x128 : S_.BroadcastsInDim S2000000x128 (![] : Fin 0 → Fin S2000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x64_0 : S100000.BroadcastsInDim S100000x64 (![0] : Fin 1 → Fin S100000x64.rank)
  bcast_S_S100000x64 : S_.BroadcastsInDim S100000x64 (![] : Fin 0 → Fin S100000x64.rank)
  bcast_S100000_S100000x128_0 : S100000.BroadcastsInDim S100000x128 (![0] : Fin 1 → Fin S100000x128.rank)
  shapeCasts_S2000x64_S2000x64 : S2000x64.ShapeCasts S2000x64
  shapeCasts_S2000x128_S2000x128 : S2000x128.ShapeCasts S2000x128
  concatenates_S2000x64_S2000x128_S2000x192_d1 : Shape.Concatenates [S2000x64, S2000x128] S2000x192 1
  inb_S192x256_S192x256_0_0 : ∀ a, (![0, 0] : Fin 2 → Nat) a + S192x256.size a ≤ S192x256.size a
  h_S192x256 : 0 < S192x256.numel
  dot_S2000x66_S66x256_S2000x256_1_0_0_1_n_n_wf : DotDims.WF S2000x66 S66x256 S2000x256 [1] [0] [0] [1] [] []
  dot_S2000x256_S256x128_S2000x128_1_0_0_1_n_n_wf : DotDims.WF S2000x256 S256x128 S2000x128 [1] [0] [0] [1] [] []
  gather_S200000x128_S2000000x1_S2000000x128_1_0_n_n_0_1_1128_wf : GatherDims.WF S200000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  gather_S100000x64_S100000x1_S100000x64_1_0_n_n_0_1_164_wf : GatherDims.WF S100000x64 S100000x1 S100000x64 [1] [0] [] [0] [] 1 ![1, 64]
  gather_S100000x128_S100000x1_S100000x128_1_0_n_n_0_1_1128_wf : GatherDims.WF S100000x128 S100000x1 S100000x128 [1] [0] [] [0] [] 1 ![1, 128]
  dot_S2000x192_S192x256_S2000x256_1_0_0_1_n_n_wf : DotDims.WF S2000x192 S192x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S200000x2.size a
  hwx0_0 : ∀ i : grid0.Coords, EltTy.bits .f32 = 32 ∨ (Rect.block (s := S200000x2) S2000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S200000x64.size a
  hwx0_1 : ∀ i : grid0.Coords, EltTy.bits .f32 = 32 ∨ (Rect.block (s := S200000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S66x256.size a ≤ S66x256.size a
  hwx0_2 : ∀ i : grid0.Coords, EltTy.bits .f32 = 32 ∨ (Rect.block (s := S66x256) S66x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S200000x128.size a
  hwx0_6 : ∀ i : grid0.Coords, EltTy.bits .f32 = 32 ∨ (Rect.block (s := S200000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x256.size a ≤ S192x256.size a
  hwx1_2 : ∀ i : grid1.Coords, EltTy.bits .f32 = 32 ∨ (Rect.block (s := S192x256) S192x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)

variable [Facts₀]

def dot_S2000x66_S66x256_S2000x256_1_0_0_1_n_n : DotDims S2000x66 S66x256 S2000x256 where
  lhsContracting := [1]
  rhsContracting := [0]
  lhsNonContracting := [0]
  rhsNonContracting := [1]
  lhsBatch := []
  rhsBatch := []
  wf := dot_S2000x66_S66x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S2000x192_S192x256_S2000x256_1_0_0_1_n_n : DotDims S2000x192 S192x256 S2000x256 where
  lhsContracting := [1]
  rhsContracting := [0]
  lhsNonContracting := [0]
  rhsNonContracting := [1]
  lhsBatch := []
  rhsBatch := []
  wf := dot_S2000x192_S192x256_S2000x256_1_0_0_1_n_n_wf

abbrev win0_0 : Pipeline.Window sig grid0 :=
  Pipeline.Window.ofSpec (Memref.whole main_arg0) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S66x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S200000x2 : Shape := ⟨2, ![200000, 2]⟩
abbrev S200000x64 : Shape := ⟨2, ![200000, 64]⟩
abbrev S100000x64 : Shape := ⟨2, ![100000, 64]⟩
abbrev S66x256 : Shape := ⟨2, ![66, 256]⟩
abbrev S256 : Shape := ⟨1, ![256]⟩
abbrev S256x128 : Shape := ⟨2, ![256, 128]⟩
abbrev S128 : Shape := ⟨1, ![128]⟩
abbrev S192x256 : Shape := ⟨2, ![192, 256]⟩
abbrev S2000000 : Shape := ⟨1, ![2000000]⟩
abbrev S100000 : Shape := ⟨1, ![100000]⟩
abbrev S200000x66 : Shape := ⟨2, ![200000, 66]⟩
abbrev S200000x256 : Shape := ⟨2, ![200000, 256]⟩
abbrev S1x256 : Shape := ⟨2, ![1, 256]⟩
abbrev S_ : Shape := ⟨0, ![]⟩
abbrev S200000x128 : Shape := ⟨2, ![200000, 128]⟩
abbrev S1x128 : Shape := ⟨2, ![1, 128]⟩
abbrev S200000 : Shape := ⟨1, ![200000]⟩
abbrev S200000x1 : Shape := ⟨2, ![200000, 1]⟩
abbrev S2000000x1 : Shape := ⟨2, ![2000000, 1]⟩
abbrev S2000000x128 : Shape := ⟨2, ![2000000, 128]⟩
abbrev S100000x128 : Shape := ⟨2, ![100000, 128]⟩
abbrev S100000x1 : Shape := ⟨2, ![100000, 1]⟩
abbrev S100000x192 : Shape := ⟨2, ![100000, 192]⟩
abbrev S100000x256 : Shape := ⟨2, ![100000, 256]⟩

abbrev nBuf : Space → Nat
  | .hbm => 101
  | .vmem => 0
  | .smem => 0
  | _ => 0

abbrev bufTy : (tb : Table) → Fin (tcTables nBuf tb) → BufTy
  | .hbm, ⟨0, _⟩ => ⟨S200000x2, .f32⟩
  | .hbm, ⟨1, _⟩ => ⟨S200000x64, .f32⟩
  | .hbm, ⟨2, _⟩ => ⟨S100000x64, .f32⟩
  | .hbm, ⟨3, _⟩ => ⟨S66x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S192x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S2000000, .i32⟩
  | .hbm, ⟨12, _⟩ => ⟨S2000000, .i32⟩
  | .hbm, ⟨13, _⟩ => ⟨S100000, .i32⟩
  | .hbm, ⟨14, _⟩ => ⟨S200000x66, .f32⟩
  | .hbm, ⟨15, _⟩ => ⟨S200000x256, .f32⟩
  | .hbm, ⟨16, _⟩ => ⟨S1x256, .f32⟩
  | .hbm, ⟨17, _⟩ => ⟨S200000x256, .f32⟩
  | .hbm, ⟨18, _⟩ => ⟨S200000x256, .f32⟩
  | .hbm, ⟨19, _⟩ => ⟨S_, .f32⟩
  | .hbm, ⟨20, _⟩ => ⟨S200000x256, .f32⟩
  | .hbm, ⟨21, _⟩ => ⟨S200000x256, .f32⟩
  | .hbm, ⟨22, _⟩ => ⟨S200000x128, .f32⟩
  | .hbm, ⟨23, _⟩ => ⟨S1x128, .f32⟩
  | .hbm, ⟨24, _⟩ => ⟨S200000x128, .f32⟩
  | .hbm, ⟨25, _⟩ => ⟨S200000x128, .f32⟩
  | .hbm, ⟨26, _⟩ => ⟨S200000x128, .f32⟩
  | .hbm, ⟨27, _⟩ => ⟨S_, .f32⟩
  | .hbm, ⟨28, _⟩ => ⟨S200000, .f32⟩
  | .hbm, ⟨29, _⟩ => ⟨S200000x1, .f32⟩
  | .hbm, ⟨30, _⟩ => ⟨S200000x1, .f32⟩
  | .hbm, ⟨31, _⟩ => ⟨S_, .f32⟩
  | .hbm, ⟨32, _⟩ => ⟨S200000x1, .f32⟩
  | .hbm, ⟨33, _⟩ => ⟨S200000x1, .f32⟩
  | .hbm, ⟨34, _⟩ => ⟨S200000x128, .f32⟩
  | .hbm, ⟨35, _⟩ => ⟨S200000x128, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000x128, .f32⟩
  | .hbm, ⟨45, _⟩ => ⟨S_, .f32⟩
  | .hbm, ⟨46, _⟩ => ⟨S100000x128, .f32⟩
  | .hbm, ⟨47, _⟩ => ⟨S2000000x1, .i32⟩
  | .hbm, ⟨48, _⟩ => ⟨S100000x128, .f32⟩
  | .hbm, ⟨49, _⟩ => ⟨S_, .f32⟩
  | .hbm, ⟨50, _⟩ => ⟨S2000000, .f32⟩
  | .hbm, ⟨51, _⟩ => ⟨S_, .f32⟩
  | .hbm, ⟨52, _⟩ => ⟨S100000, .f32⟩
  | .hbm, ⟨53, _⟩ => ⟨S2000000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S100000x64, .f32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S100000x1, .i32⟩
  | .hbm, ⟨78, _⟩ => ⟨S100000x128, .f32⟩
  | .hbm, ⟨79, _⟩ => ⟨S100000x192, .f32⟩
  | .hbm, ⟨80, _⟩ => ⟨S100000x256, .f32⟩
  | .hbm, ⟨81, _⟩ => ⟨S1x256, .f32⟩
  | .hbm, ⟨82, _⟩ => ⟨S100000x256, .f32⟩
  | .hbm, ⟨83, _⟩ => ⟨S100000x256, .f32⟩
  | .hbm, ⟨84, _⟩ => ⟨S_, .f32⟩
  | .hbm, ⟨85, _⟩ => ⟨S100000x256, .f32⟩
  | .hbm, ⟨86, _⟩ => ⟨S100000x256, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  concatenates_S200000x2_S200000x64_S200000x66_d1 : Shape.Concatenates [S200000x2, S200000x64] S200000x66 1
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x128_S200000_d1 : S200000x128.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x64_S100000x128_S100000x192_d1 : Shape.Concatenates [S100000x64, S100000x128] S100000x192 1
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1x128_S100000x128_0_1 : S1x128.BroadcastsInDim S100000x128 (![0, 1] : Fin 2 → Fin S100000x128.rank)
  reducesTo_S100000x128_S100000_d1 : S100000x128.ReducesTo [1] S100000
  bcast_S_S100000x1 : S_.BroadcastsInDim S100000x1 (![] : Fin 0 → Fin S100000x1.rank)
  dot_S200000x66_S66x256_S200000x256_1_0_0_1_n_n_wf : DotDims.WF S200000x66 S66x256 S200000x256 [1] [0] [0] [1] [] []
  dot_S200000x256_S256x128_S200000x128_1_0_0_1_n_n_wf : DotDims.WF S200000x256 S256x128 S200000x128 [1] [0] [0] [1] [] []
  gather_S200000x128_S2000000x1_S2000000x128_1_0_n_n_0_1_1128_wf : GatherDims.WF S200000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  gather_S100000x64_S100000x1_S100000x64_1_0_n_n_0_1_164_wf : GatherDims.WF S100000x64 S100000x1 S100000x64 [1] [0] [] [0] [] 1 ![1, 64]
  gather_S100000x128_S100000x1_S100000x128_1_0_n_n_0_1_1128_wf : GatherDims.WF S100000x128 S100000x1 S100000x128 [1] [0] [] [0] [] 1 ![1, 128]
  dot_S100000x192_S192x256_S100000x256_1_0_0_1_n_n_wf : DotDims.WF S100000x192 S192x256 S100000x256 [1] [0] [0] [1] [] []
  dot_S100000x256_S256x128_S100000x128_1_0_0_1_n_n_wf : DotDims.WF S100000x256 S256x128 S100000x128 [1] [0] [0] [1] [] []

variable [Facts₀]

def dot_S200000x66_S66x256_S200000x256_1_0_0_1_n_n : DotDims S200000x66 S66x256 S200000x256 where
  lhsContracting := [1]
  rhsContracting := [0]
  lhsNonContracting := [0]
  rhsNonContracting := [1]
  lhsBatch := []
  rhsBatch := []
  wf := dot_S200000x66_S66x256_S200000x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x192_S192x256_S100000x256_1_0_0_1_n_n : DotDims S100000x192 S192x256 S100000x256 where
  lhsContracting := [1]
  rhsContracting := [0]
  lhsNonContracting := [0]
  rhsNonContracting := [1]
  lhsBatch := []
  rhsBatch := []
  wf := dot_S100000x192_S192x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.PreDecode.lean ====
/-
  The added conjuncts of the precondition, read back: the printed predicate is a chain of one-bit conjunctions; its last
  four conjuncts say that every entry of item_idx lies in [0, 200000) and every entry of users in [0, 100000), as signed
  32-bit comparisons. A conjunction of bits that is 1 has every conjunct 1, and an all-reduction by "and" that is 1 had a 1
  at every position.
-/
import proofs.«427121_j65506841198654_1_alg».proof.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable [hP : Cert.Pre_finite_inputs.Facts] {F : FTy → Type} [FloatOps F]

instance : Subsingleton S_.Idx := ⟨fun a b => funext fun d => d.elim0⟩

/-- Where the precondition holds, every entry of item_idx is at least 0 and below 200000, and every entry of users is at
    least 0 and below 100000 (signed comparisons of 32-bit words). -/
theorem ranges (a0 : FVec F S200000x2 .f32) (a1 : FVec F S200000x64 .f32) (a2 : FVec F S100000x64 .f32) (a3 : FVec F S66x256 .f32)
    (a4 : FVec F S256 .f32) (a5 : FVec F S256x128 .f32) (a6 : FVec F S128 .f32) (a7 : FVec F S192x256 .f32) (a8 : FVec F S256 .f32)
    (a9 : FVec F S256x128 .f32) (a10 : FVec F S128 .f32) (a11 : IVec S2000000 32) (a12 : IVec S2000000 32) (a13 : IVec S100000 32)
    (h : fn (F := F) a0 a1 a2 a3 a4 a5 a6 a7 a8 a9 a10 a11 a12 a13 = fun _ => 1#1) :
    (∀ i, IntOp.cmpi .sge (a11 i) 0#32 = 1#1) ∧ (∀ i, IntOp.cmpi .slt (a11 i) 200000#32 = 1#1)
      ∧ (∀ i, IntOp.cmpi .sge (a13 i) 0#32 = 1#1) ∧ (∀ i, IntOp.cmpi .slt (a13 i) 100000#32 = 1#1) := by
  have e := congrFun h ix0
  dsimp only [fn, fn_part1, fn_part2, fn_part3, fn_part4] at e
  simp only [andi] at e
  simp only [IntOp.andi_eq_one] at e
  obtain ⟨⟨⟨⟨-, h56⟩, h60⟩, h64⟩, h68⟩ := e
  exact ⟨fun i => Host.reduce_andi_all _ _ _ _ _ h56 i, fun i => Host.reduce_andi_all _ _ _ _ _ h60 i,
    fun i => Host.reduce_andi_all _ _ _ _ _ h64 i, fun i => Host.reduce_andi_all _ _ _ _ _ h68 i⟩

end Cert.Pre_finite_inputs.Decode

end
-- ==== Proof.Walk.lean ====
/-
  Which buffers the stretches of host operations between the two regions leave alone: an argument array, or a value one
  stretch computes and a later one reads, is not written by the stretches in between, so the contents at a later boundary
  are those at an earlier one; the regions' own arrays at their exits are what the pipelines leave.
-/
import proofs.«427121_j65506841198654_1_alg».proof.Proof.Gen.KernelIdeal.Frame
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg)

/-- The item indices reach the first stretch as launched. -/
theorem W1_arg11 (c : Dev nD) : W1 m ρ c (Proc.devRef .tc main_arg11) = m ((c : Thread nD τ).loc main_arg11) :=
  calc W1 m ρ c (Proc.devRef .tc main_arg11)
    _ = W0 m ρ c (Proc.devRef .tc main_arg11) := W1_of_ne m ρ c main_arg11 (by decide)
    _ = m ((c : Thread nD τ).loc main_arg11) := rfl
/-- The segment ids reach the second stretch as launched. -/
theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := W1_of_ne m ρ c main_arg12 (by decide)
    _ = m ((c : Thread nD τ).loc main_arg12) := rfl
/-- The user embeddings and the user indices reach the third stretch as launched. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem W3_arg13 (c : Dev nD) : W3 m ρ c (Proc.devRef .tc main_arg13) = m ((c : Thread nD τ).loc main_arg13) :=
  calc W3 m ρ c (Proc.devRef .tc main_arg13)
    _ = W2 m ρ c (Proc.devRef .tc main_arg13) := StableHlo.after_of_forall_not_mem (b := Proc.devRef .tc main_arg13) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := W1_of_ne m ρ c main_arg13 (by decide)
    _ = m ((c : Thread nD τ).loc main_arg13) := rfl
/-- The user indices reach the fourth stretch as launched, and the history the second stretch computed is still there. -/
theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := StableHlo.after_of_forall_not_mem (b := Proc.devRef .tc main_arg13) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W3_arg13 m ρ c
theorem W4_v13 (c : Dev nD) : W4 m ρ c (Proc.devRef .tc main_v13) = W3 m ρ c (Proc.devRef .tc main_v13) :=
  StableHlo.after_of_forall_not_mem (b := Proc.devRef .tc main_v13) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- The fourth stretch leaves the gathered user embeddings alone. -/
theorem W5_v14 (c : Dev nD) : W5 m ρ c (Proc.devRef .tc main_v14) = W4 m ρ c (Proc.devRef .tc main_v14) :=
  StableHlo.after_of_forall_not_mem (b := Proc.devRef .tc main_v14) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- The user tower's weights reach the second region as launched. -/
theorem W5_arg7 (c : Dev nD) : W5 m ρ c (Proc.devRef .tc main_arg7) = m ((c : Thread nD τ).loc main_arg7) :=
  calc W5 m ρ c (Proc.devRef .tc main_arg7)
    _ = W6 m ρ c (Proc.devRef .tc main_arg7) := ((W6_arr m ρ c 2).trans (((dat1 (V5 m ρ) c).arrAt_in 2 rfl _).trans (A_eq1 (V5 m ρ) c 2))).symm
    _ = m ((c : Thread nD τ).loc main_arg7) := W6_main_arg7 m ρ c
theorem W5_arg8 (c : Dev nD) : W5 m ρ c (Proc.devRef .tc main_arg8) = m ((c : Thread nD τ).loc main_arg8) :=
  calc W5 m ρ c (Proc.devRef .tc main_arg8)
    _ = W6 m ρ c (Proc.devRef .tc main_arg8) := ((W6_arr m ρ c 3).trans (((dat1 (V5 m ρ) c).arrAt_in 3 rfl _).trans (A_eq1 (V5 m ρ) c 3))).symm
    _ = m ((c : Thread nD τ).loc main_arg8) := W6_main_arg8 m ρ c
theorem W5_arg9 (c : Dev nD) : W5 m ρ c (Proc.devRef .tc main_arg9) = m ((c : Thread nD τ).loc main_arg9) :=
  calc W5 m ρ c (Proc.devRef .tc main_arg9)
    _ = W6 m ρ c (Proc.devRef .tc main_arg9) := ((W6_arr m ρ c 4).trans (((dat1 (V5 m ρ) c).arrAt_in 4 rfl _).trans (A_eq1 (V5 m ρ) c 4))).symm
    _ = m ((c : Thread nD τ).loc main_arg9) := W6_main_arg9 m ρ c
theorem W5_arg10 (c : Dev nD) : W5 m ρ c (Proc.devRef .tc main_arg10) = m ((c : Thread nD τ).loc main_arg10) :=
  calc W5 m ρ c (Proc.devRef .tc main_arg10)
    _ = W6 m ρ c (Proc.devRef .tc main_arg10) := ((W6_arr m ρ c 5).trans (((dat1 (V5 m ρ) c).arrAt_in 5 rfl _).trans (A_eq1 (V5 m ρ) c 5))).symm
    _ = m ((c : Thread nD τ).loc main_arg10) := W6_main_arg10 m ρ c
/-- The first region's output array at its exit, and the second's, are what their pipelines leave. -/
theorem W1_v0 (c : Dev nD) : W1 m ρ c (Proc.devRef .tc main_v0) = (dat0 (V0 m ρ) c).arrAt 6 cfg0.N :=
  W1_arr m ρ c 6
theorem W6_v16 (c : Dev nD) : W6 m ρ c (Proc.devRef .tc main_v16) = (dat1 (V5 m ρ) c).arrAt 6 cfg1.N :=
  W6_arr m ρ c 6

end Cert.KernelIdeal.Walk

end
-- ==== Proof.Middle.lean ====
/-
  The host operations between the two regions, as functions of what they read.
  jnp.take builds its start indices from an index vector (negative entries wrapped by the extent, then one column),
  gathers the rows, and overwrites with a fill value every row whose start index is outside [0, extent - 1]; where every
  index is inside [0, extent) the mask is all ones and the take IS the plain gather. The history is the segment sum of the
  gathered rows divided by the larger of the segment's count and 1. The reference spells the same gathers without the mask.
-/
import proofs.«427121_j65506841198654_1_alg».proof.Proof.Gen.KernelIdeal.Frame
import Idealize.ShloMosaic.Lib.ReduceAll
import Idealize.ShloMosaic.Lib.Affine
import Idealize.ShloMosaic.Lib.ValueIdx
import Idealize.ShloMosaic.Lib.StableHlo.Predicate

set_option maxRecDepth 16384

noncomputable section

namespace Cert.KernelIdeal.Middle

open Cert.KernelIdeal Cert.KernelIdeal.Facts₀ Cert.KernelIdeal.Facts
open Idealize.ShloMosaic Idealize.ShloMosaic.TcCoe Idealize.ShloMosaic.StableHlo Idealize.SL.Sem Idealize.ShloMosaic.ValueIdx

/-! ## One-bit masks that are all ones -/

theorem bcast_all_one {s t : Shape} (dims : Fin s.rank → Fin t.rank) (h : s.BroadcastsInDim t dims) (x : IVec s 1)
    (hx : ∀ p, x p = 1#1) (j : t.Idx) : broadcastInDim t dims h x j = 1#1 := hx _

/-- A reduction by "and" from 1 over entries that are all 1 is 1. -/
theorem reduce_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  have key : ∀ (l : List s.Idx) (r : BitVec 1), r = 1#1 → l.foldl (fun r i => IntOp.andi r (x i)) r = 1#1 := by
    intro l
    induction l with
    | nil => intro r hr; exact hr
    | cons a l ih => intro r hr; rw [List.foldl_cons]; apply ih; rw [hr, hx a]; decide
  exact key _ _ (hinit _)

theorem andi_all_one {s : Shape} (a b : IVec s 1) (ha : ∀ i, a i = 1#1) (hb : ∀ i, b i = 1#1) (i : s.Idx) : andi a b i = 1#1 := by
  show IntOp.andi (a i) (b i) = 1#1
  rw [ha i, hb i]; decide

/-- A word that is not negative is not wrapped. -/
theorem wrap_of_nonneg (w x : BitVec 32) (hge : IntOp.cmpi .sge w 0#32 = 1#1) :
    Scalar.select (IntOp.cmpi .slt w 0#32) x w = w := by
  have h0 : ¬ IntOp.cmpi .slt w 0#32 = 1#1 := by
    rw [IntOp.cmpi_slt]; rw [IntOp.cmpi_sge] at hge; omega
  rw [eq_zero_of_ne_one h0, select_zero]

/-- Below n + 1 is at most n (signed words, small n). -/
theorem sle_pred_of_slt (w : BitVec 32) (n : Nat) (hn : n + 1 < 2 ^ 31) (h : IntOp.cmpi .slt w (BitVec.ofNat 32 (n + 1)) = 1#1) :
    IntOp.cmpi .sle w (BitVec.ofNat 32 n) = 1#1 := by
  rw [IntOp.cmpi_slt, Predicate.toInt_ofNat_small _ hn] at h
  rw [IntOp.cmpi_sle, Predicate.toInt_ofNat_small _ (by omega)]
  omega

/-! ## The item gather -/

/-- The start indices built from the item indices: a negative entry gets the extent 200000 added; one column. -/
def wrapItems (idx : IVec S2000000 32) : IVec S2000000x1 32 :=
  broadcastInDim S2000000x1 ![0] bcast_S2000000_S2000000x1_0
    (select (cmpi .slt idx (broadcastInDim S2000000 ![] bcast_S_S2000000 (constantI S_ 32 0#32)))
      (addi idx (broadcastInDim S2000000 ![] bcast_S_S2000000 (constantI S_ 32 200000#32))) idx)

/-- Row by row: is the start index inside [0, 199999]? -/
def maskItems (idx : IVec S2000000 32) : IVec S2000000 1 :=
  Host.reduce IntOp.andi
    (andi (cmpi .sge (wrapItems idx) (broadcastInDim S2000000x1 ![] bcast_S_S2000000x1 (constantI S_ 32 0#32)))
      (cmpi .sle (wrapItems idx) (broadcastInDim S2000000x1 ![0, 1] bcast_S1x1_S2000000x1_0_1
        (broadcastInDim S1x1 ![1] bcast_S1_S1x1_1 (constantI S1 32 199999#32)))))
    (constantI S_ 1 1#1) reducesTo_S2000000x1_S2000000_d1 h_S_

/-- The take of item rows with its fill: the gathered rows where the mask is set, the fill word elsewhere. -/
def takeFillItems (X : FVec Ideal S200000x128 .f32) (idx : IVec S2000000 32) : FVec Ideal S2000000x128 .f32 :=
  select (broadcastInDim S2000000x128 ![0] bcast_S2000000_S2000000x128_0 (maskItems idx))
    (Host.gather gather_S200000x128_S2000000x1_S2000000x128_1_0_n_n_0_1_1128 X (wrapItems idx))
    (broadcastInDim S2000000x128 ![] bcast_S_S2000000x128 (constant (F := Ideal) S_ .f32 0x7FC00000#32))

/-- With no negative index nothing is wrapped: every start index is one of the given indices. -/
theorem wrapItems_at (idx : IVec S2000000 32) (hge : ∀ k, IntOp.cmpi .sge (idx k) 0#32 = 1#1) (i : S2000000x1.Idx) :
    ∃ k, wrapItems idx i = idx k := by
  unfold wrapItems
  exact ⟨_, wrap_of_nonneg _ _ (hge _)⟩

/-- With every index inside the extent the row mask is one everywhere. -/
theorem maskItems_one (idx : IVec S2000000 32) (hge : ∀ k, IntOp.cmpi .sge (idx k) 0#32 = 1#1)
    (hlt : ∀ k, IntOp.cmpi .slt (idx k) 200000#32 = 1#1) (p : S2000000.Idx) : maskItems idx p = 1#1 := by
  unfold maskItems
  refine reduce_all_one _ _ _ _ (fun _ => rfl) (fun i => andi_all_one _ _ ?_ ?_ i) p
  · intro i
    obtain ⟨k, hk⟩ := wrapItems_at idx hge i
    show IntOp.cmpi .sge (wrapItems idx i) 0#32 = 1#1
    rw [hk]; exact hge k
  · intro i
    obtain ⟨k, hk⟩ := wrapItems_at idx hge i
    show IntOp.cmpi .sle (wrapItems idx i) 199999#32 = 1#1
    rw [hk]; exact sle_pred_of_slt _ 199999 (by norm_num) (hlt k)

/-- With every item index in [0, 200000) the take is the plain gather. -/
theorem takeFillItems_eq (X : FVec Ideal S200000x128 .f32) (idx : IVec S2000000 32)
    (hge : ∀ k, IntOp.cmpi .sge (idx k) 0#32 = 1#1) (hlt : ∀ k, IntOp.cmpi .slt (idx k) 200000#32 = 1#1) :
    takeFillItems X idx = Host.gather gather_S200000x128_S2000000x1_S2000000x128_1_0_n_n_0_1_1128 X (wrapItems idx) := by
  funext j
  unfold takeFillItems
  rw [ValueIdx.select_apply, bcast_all_one _ _ _ (maskItems_one idx hge hlt) j]
  exact ValueIdx.select_one _ _

/-! ## The two user gathers -/

/-- The start indices built from the user indices: a negative entry gets the extent 100000 added; one column. -/
def wrapUsers (idx : IVec S100000 32) : IVec S100000x1 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 100000#32))) idx)

/-- Row by row: is the start index inside [0, 99999]? -/
def maskUsers (idx : IVec S100000 32) : IVec S100000 1 :=
  Host.reduce IntOp.andi
    (andi (cmpi .sge (wrapUsers idx) (broadcastInDim S100000x1 ![] bcast_S_S100000x1 (constantI S_ 32 0#32)))
      (cmpi .sle (wrapUsers idx) (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_

def takeFillUsers64 (X : FVec Ideal S100000x64 .f32) (idx : IVec S100000 32) : FVec Ideal S100000x64 .f32 :=
  select (broadcastInDim S100000x64 ![0] bcast_S100000_S100000x64_0 (maskUsers idx))
    (Host.gather gather_S100000x64_S100000x1_S100000x64_1_0_n_n_0_1_164 X (wrapUsers idx))
    (broadcastInDim S100000x64 ![] bcast_S_S100000x64 (constant (F := Ideal) S_ .f32 0x7FC00000#32))

def takeFillUsers128 (X : FVec Ideal S100000x128 .f32) (idx : IVec S100000 32) : FVec Ideal S100000x128 .f32 :=
  select (broadcastInDim S100000x128 ![0] bcast_S100000_S100000x128_0 (maskUsers idx))
    (Host.gather gather_S100000x128_S100000x1_S100000x128_1_0_n_n_0_1_1128 X (wrapUsers idx))
    (broadcastInDim S100000x128 ![] bcast_S_S100000x128 (constant (F := Ideal) S_ .f32 0x7FC00000#32))

/-- With no negative index nothing is wrapped: every start index is one of the given indices. -/
theorem wrapUsers_at (idx : IVec S100000 32) (hge : ∀ k, IntOp.cmpi .sge (idx k) 0#32 = 1#1) (i : S100000x1.Idx) :
    ∃ k, wrapUsers idx i = idx k := by
  unfold wrapUsers
  exact ⟨_, wrap_of_nonneg _ _ (hge _)⟩

/-- With every index inside the extent the row mask is one everywhere. -/
theorem maskUsers_one (idx : IVec S100000 32) (hge : ∀ k, IntOp.cmpi .sge (idx k) 0#32 = 1#1)
    (hlt : ∀ k, IntOp.cmpi .slt (idx k) 100000#32 = 1#1) (p : S100000.Idx) : maskUsers idx p = 1#1 := by
  unfold maskUsers
  refine reduce_all_one _ _ _ _ (fun _ => rfl) (fun i => andi_all_one _ _ ?_ ?_ i) p
  · intro i
    obtain ⟨k, hk⟩ := wrapUsers_at idx hge i
    show IntOp.cmpi .sge (wrapUsers idx i) 0#32 = 1#1
    rw [hk]; exact hge k
  · intro i
    obtain ⟨k, hk⟩ := wrapUsers_at idx hge i
    show IntOp.cmpi .sle (wrapUsers idx i) 99999#32 = 1#1
    rw [hk]; exact sle_pred_of_slt _ 99999 (by norm_num) (hlt k)

/-- With every user index in [0, 100000) each take is the plain gather. -/
theorem takeFillUsers64_eq (X : FVec Ideal S100000x64 .f32) (idx : IVec S100000 32)
    (hge : ∀ k, IntOp.cmpi .sge (idx k) 0#32 = 1#1) (hlt : ∀ k, IntOp.cmpi .slt (idx k) 100000#32 = 1#1) :
    takeFillUsers64 X idx = Host.gather gather_S100000x64_S100000x1_S100000x64_1_0_n_n_0_1_164 X (wrapUsers idx) := by
  funext j
  unfold takeFillUsers64
  rw [ValueIdx.select_apply, bcast_all_one _ _ _ (maskUsers_one idx hge hlt) j]
  exact ValueIdx.select_one _ _

theorem takeFillUsers128_eq (X : FVec Ideal S100000x128 .f32) (idx : IVec S100000 32)
    (hge : ∀ k, IntOp.cmpi .sge (idx k) 0#32 = 1#1) (hlt : ∀ k, IntOp.cmpi .slt (idx k) 100000#32 = 1#1) :
    takeFillUsers128 X idx = Host.gather gather_S100000x128_S100000x1_S100000x128_1_0_n_n_0_1_1128 X (wrapUsers idx) := by
  funext j
  unfold takeFillUsers128
  rw [ValueIdx.select_apply, bcast_all_one _ _ _ (maskUsers_one idx hge hlt) j]
  exact ValueIdx.select_one _ _

/-! ## The history -/

/-- The per-user mean of the gathered rows: the segment sum over the segment ids, divided by the larger of the segment's
    count and 1. -/
def histOf (G : FVec Ideal S2000000x128 .f32) (seg : IVec S2000000 32) : FVec Ideal S100000x128 .f32 :=
  Host.divf
    (Host.scatterAdd scatter_S100000x128_S2000000x1_S2000000x128_1_0_0_1
      (broadcastInDim S100000x128 ![] bcast_S_S100000x128 (constant (F := Ideal) S_ .f32 0x00000000#32))
      (broadcastInDim S2000000x1 ![0] bcast_S2000000_S2000000x1_0 seg) G)
    (broadcastInDim S100000x128 ![0, 1] bcast_S100000x1_S100000x128_0_1
      (broadcastInDim S100000x1 ![0] bcast_S100000_S100000x1_0
        (maximumf
          (Host.scatterAdd scatter_S100000_S2000000x1_S2000000_n_0_0_1
            (broadcastInDim S100000 ![] bcast_S_S100000 (constant (F := Ideal) S_ .f32 0x00000000#32))
            (broadcastInDim S2000000x1 ![0] bcast_S2000000_S2000000x1_0 seg)
            (broadcastInDim S2000000 ![] bcast_S_S2000000 (constant (F := Ideal) S_ .f32 0x3F800000#32)))
          (broadcastInDim S100000 ![] bcast_S_S100000 (constant (F := Ideal) S_ .f32 0x3F800000#32)))))

end Cert.KernelIdeal.Middle

end
-- ==== Proof.Stretches.lean ====
/-
  The four stretches of host operations between the two regions, each read as ONE function of the buffers it reads:
  the take of item rows, the history (segment mean), and the two takes of user rows.
-/
import proofs.«427121_j65506841198654_1_alg».proof.Proof.Gen.KernelIdeal.Frame
import proofs.«427121_j65506841198654_1_alg».proof.Proof.Middle
import Idealize.ShloMosaic.Lib.StableHlo.Run

set_option maxRecDepth 16384

noncomputable section

namespace Cert.KernelIdeal.Stretches

open Cert.KernelIdeal Cert.KernelIdeal.Middle
open Idealize.ShloMosaic Idealize.ShloMosaic.TcCoe Idealize.ShloMosaic.StableHlo Idealize.SL.Sem

/-- Contents carried to a buffer's own type and back are unchanged. -/
theorem ofBuf_toBuf {Val : EltTy → Type} {T : BufTy} (x : TRef sig T) (v : T.Contents Val) : x.ofBuf (x.toBuf v) = v := by
  obtain ⟨r, h, h1, h2⟩ := x; subst h; rfl

/-! Each buffer a stretch reads, and the one it writes, holds contents of the type the operations use. -/

theorem in_arg11 (W : Valuation τ sig (Elt Ideal)) :
    (TRef.of main_arg11 : TRef sig ⟨S2000000, .i32⟩).ofBuf (W (Proc.devRef .tc main_arg11)) = W (Proc.devRef .tc main_arg11) := rfl

theorem in_v0 (W : Valuation τ sig (Elt Ideal)) :
    (TRef.of main_v0 : TRef sig ⟨S200000x128, .f32⟩).ofBuf (W (Proc.devRef .tc main_v0)) = W (Proc.devRef .tc main_v0) := rfl

theorem out_v1 (v : FVec Ideal S2000000x128 .f32) :
    (TRef.of main_v1 : TRef sig ⟨S2000000x128, .f32⟩).toBuf (Val := Elt Ideal) v = v := rfl

theorem in_arg13 (W : Valuation τ sig (Elt Ideal)) :
    (TRef.of main_arg13 : TRef sig ⟨S100000, .i32⟩).ofBuf (W (Proc.devRef .tc main_arg13)) = W (Proc.devRef .tc main_arg13) := rfl

theorem in_arg2 (W : Valuation τ sig (Elt Ideal)) :
    (TRef.of main_arg2 : TRef sig ⟨S100000x64, .f32⟩).ofBuf (W (Proc.devRef .tc main_arg2)) = W (Proc.devRef .tc main_arg2) := rfl

theorem out_v14 (v : FVec Ideal S100000x64 .f32) :
    (TRef.of main_v14 : TRef sig ⟨S100000x64, .f32⟩).toBuf (Val := Elt Ideal) v = v := rfl

theorem in_v13 (W : Valuation τ sig (Elt Ideal)) :
    (TRef.of main_v13 : TRef sig ⟨S100000x128, .f32⟩).ofBuf (W (Proc.devRef .tc main_v13)) = W (Proc.devRef .tc main_v13) := rfl

theorem out_v15 (v : FVec Ideal S100000x128 .f32) :
    (TRef.of main_v15 : TRef sig ⟨S100000x128, .f32⟩).toBuf (Val := Elt Ideal) v = v := rfl

set_option maxHeartbeats 4000000 in
theorem stretch_items (W : Valuation τ sig (Elt Ideal)) :
    StableHlo.after (Gen.hostOps1 (F := Ideal)) W (Proc.devRef .tc main_v1)
      = takeFillItems (W (Proc.devRef .tc main_v0)) (W (Proc.devRef .tc main_arg11)) := by
  after_results_simp
  simp only [ofBuf_toBuf]
  rw [in_arg11 W, in_v0 W]
  refine (out_v1 _).trans ?_
  unfold takeFillItems maskItems wrapItems
  rfl

set_option maxHeartbeats 4000000 in
theorem stretch_hist (W : Valuation τ sig (Elt Ideal)) :
    StableHlo.after (Gen.hostOps1_1 (F := Ideal)) W (Proc.devRef .tc main_v13)
      = histOf (W (Proc.devRef .tc main_v1)) (W (Proc.devRef .tc main_arg12)) := by
  after_results_simp
  unfold histOf
  rfl

set_option maxHeartbeats 4000000 in
theorem stretch_users64 (W : Valuation τ sig (Elt Ideal)) :
    StableHlo.after (Gen.hostOps1_2 (F := Ideal)) W (Proc.devRef .tc main_v14)
      = takeFillUsers64 (W (Proc.devRef .tc main_arg2)) (W (Proc.devRef .tc main_arg13)) := by
  after_results_simp
  simp only [ofBuf_toBuf]
  rw [in_arg13 W, in_arg2 W]
  refine (out_v14 _).trans ?_
  unfold takeFillUsers64 maskUsers wrapUsers
  rfl

set_option maxHeartbeats 4000000 in
theorem stretch_users128 (W : Valuation τ sig (Elt Ideal)) :
    StableHlo.after (Gen.hostOps1_3 (F := Ideal)) W (Proc.devRef .tc main_v15)
      = takeFillUsers128 (W (Proc.devRef .tc main_v13)) (W (Proc.devRef .tc main_arg13)) := by
  after_results_simp
  simp only [ofBuf_toBuf]
  rw [in_arg13 W, in_v13 W]
  refine (out_v15 _).trans ?_
  unfold takeFillUsers128 maskUsers wrapUsers
  rfl

end Cert.KernelIdeal.Stretches

end
-- ==== Proof.RefChain.lean ====
/-
  The reference's gathered stages in the words of the kernel's host operations: its x[idx] is the plain gather at the
  wrapped indices, and its history is the same segment mean. Both sides are the same terms, so each equation is an unfolding.
-/
import proofs.«427121_j65506841198654_1_alg».proof.Proof.Gen.ReferenceIdeal.Read
import proofs.«427121_j65506841198654_1_alg».proof.Proof.Middle

set_option maxRecDepth 16384

noncomputable section

namespace Cert.KernelIdeal.RefChain

open Cert.KernelIdeal Cert.KernelIdeal.Middle
open Idealize.ShloMosaic Idealize.ShloMosaic.TcCoe Idealize.SL.Sem

open Cert.ReferenceIdeal.Read in
/-- The reference's gathered user embeddings are the plain gather at the wrapped user indices. -/
theorem ref_users64 (x2 : FVec Ideal S100000x64 .f32) (x13 : IVec S100000 32) :
    val_main_v43 (F := Ideal) x2 x13 = Host.gather gather_S100000x64_S100000x1_S100000x64_1_0_n_n_0_1_164 x2 (wrapUsers x13) := by
  unfold val_main_v43 val_main_v42 val_main_v41 val_main_v38 val_main_v40 val_main_v37 val_main_v39 val_main_c_6 val_main_c_7 wrapUsers
  rfl

open Cert.ReferenceIdeal.Read in
/-- The reference's gathered history is the plain gather, at the wrapped user indices, of the history of the plain gather,
    at the wrapped item indices, of its item embedding. -/
theorem ref_users128 (x0 : FVec Ideal S200000x2 .f32) (x1 : FVec Ideal S200000x64 .f32) (x3 : FVec Ideal S66x256 .f32)
    (x4 : FVec Ideal S256 .f32) (x5 : FVec Ideal S256x128 .f32) (x6 : FVec Ideal S128 .f32) (x11 x12 : IVec S2000000 32) (x13 : IVec S100000 32) :
    val_main_v50 (F := Ideal) x0 x1 x3 x4 x5 x6 x11 x12 x13
      = Host.gather gather_S100000x128_S100000x1_S100000x128_1_0_n_n_0_1_1128
          (histOf (Host.gather gather_S200000x128_S2000000x1_S2000000x128_1_0_n_n_0_1_1128 (val_main_v17 (F := Ideal) x0 x1 x3 x4 x5 x6) (wrapItems x11)) x12)
          (wrapUsers x13) := by
  unfold val_main_v50 val_main_v49 val_main_v48 val_main_v45 val_main_v47 val_main_v44 val_main_v46 val_main_c_8 val_main_c_9
    val_main_v36 val_main_v27 val_main_v35 val_main_v34 val_main_v33 val_main_v31 val_main_v32 val_main_v29 val_main_v30 val_main_v28
    val_main_v25 val_main_v26 val_main_v24 val_main_v23 val_main_v22 val_main_v19 val_main_v21 val_main_v18 val_main_v20
    val_main_c val_main_c_1 val_main_cst_2 val_main_cst_3 val_main_cst_4 val_main_cst_5 wrapUsers wrapItems histOf
  rfl

end Cert.KernelIdeal.RefChain

end
-- ==== Proof.Tower.lean ====
/-
  The two-layer tower with row normalisation, as one function of whole arrays over the extended reals.
  An input row x is two pieces laid side by side (the first A entries from one array, the next B from another).
  Hidden layer: h_j = max (Σ_k x_k · W1_kj + b1_j) 0.  Output layer: y_q = Σ_j h_j · W2_jq + b2_q.
  Result: y_q / max (sqrt (Σ_q' y_q' · y_q')) ε, with ε the f32 word 0x2B8CBCCC.
  Every output row is a function of its own input row and of the weights: nothing else.
-/
import Idealize.ShloMosaic.PureOps.Ideal
import Idealize.ShloMosaic.Lib.ValueIdx

noncomputable section

namespace Cert.Tower

open Idealize.ShloMosaic Idealize.ShloMosaic.ValueIdx

/-- Two rows side by side: entry k of the joined row is entry k of the first piece when k < A, entry k - A of the second otherwise. -/
def cat {A B K : ℕ} (hK : A + B = K) (u : Fin A → EReal) (v : Fin B → EReal) (k : Fin K) : EReal :=
  if h : k.val < A then u ⟨k.val, h⟩ else v ⟨k.val - A, by have := k.isLt; omega⟩

/-- The hidden layer of one row: the affine map followed by the positive part. -/
def hid {K : ℕ} (x : Fin K → EReal) (W1 : Fin K → Fin 256 → EReal) (b1 : Fin 256 → EReal) (j : Fin 256) : EReal :=
  max ((∑ k : Fin K, x k * W1 k j) + b1 j) (Ideal.ofBits .f32 0x00000000#32)

/-- The output layer of one row, before normalisation. -/
def lin {K : ℕ} (x : Fin K → EReal) (W1 : Fin K → Fin 256 → EReal) (b1 : Fin 256 → EReal)
    (W2 : Fin 256 → Fin 128 → EReal) (b2 : Fin 128 → EReal) (q : Fin 128) : EReal :=
  (∑ j : Fin 256, hid x W1 b1 j * W2 j q) + b2 q

/-- One row of the tower: the output layer divided by the larger of its Euclidean norm and ε. -/
def row {K : ℕ} (x : Fin K → EReal) (W1 : Fin K → Fin 256 → EReal) (b1 : Fin 256 → EReal)
    (W2 : Fin 256 → Fin 128 → EReal) (b2 : Fin 128 → EReal) (q : Fin 128) : EReal :=
  Ideal.div (lin x W1 b1 W2 b2 q)
    (max (Ideal.sqrt (∑ q' : Fin 128, lin x W1 b1 W2 b2 q' * lin x W1 b1 W2 b2 q')) (Ideal.ofBits .f32 0x2B8CBCCC#32))

/-- Row r of the tower over arrays: the input row is row r of xa beside row r of xb. -/
def rowAt {N A B K : ℕ} (hK : A + B = K) (xa : (⟨2, ![N, A]⟩ : Shape).Idx → EReal) (xb : (⟨2, ![N, B]⟩ : Shape).Idx → EReal)
    (w1 : (⟨2, ![K, 256]⟩ : Shape).Idx → EReal) (b1 : (⟨1, ![256]⟩ : Shape).Idx → EReal)
    (w2 : (⟨2, ![256, 128]⟩ : Shape).Idx → EReal) (b2 : (⟨1, ![128]⟩ : Shape).Idx → EReal) (r : Fin N) (q : Fin 128) : EReal :=
  row (cat hK (fun k => xa (ix2 r k)) (fun k => xb (ix2 r k))) (fun k j => w1 (ix2 k j)) (fun j => b1 (ix1 j))
    (fun j q => w2 (ix2 j q)) (fun q => b2 (ix1 q)) q

/-- The tower on whole arrays: N rows in, N rows of 128 out. -/
def arr {N A B K : ℕ} (hK : A + B = K) (xa : (⟨2, ![N, A]⟩ : Shape).Idx → EReal) (xb : (⟨2, ![N, B]⟩ : Shape).Idx → EReal)
    (w1 : (⟨2, ![K, 256]⟩ : Shape).Idx → EReal) (b1 : (⟨1, ![256]⟩ : Shape).Idx → EReal)
    (w2 : (⟨2, ![256, 128]⟩ : Shape).Idx → EReal) (b2 : (⟨1, ![128]⟩ : Shape).Idx → EReal) :
    (⟨2, ![N, 128]⟩ : Shape).Idx → EReal :=
  fun i => rowAt hK xa xb w1 b1 w2 b2 (i 0) (i 1)

theorem arr_apply {N A B K : ℕ} (hK : A + B = K) (xa : (⟨2, ![N, A]⟩ : Shape).Idx → EReal) (xb : (⟨2, ![N, B]⟩ : Shape).Idx → EReal)
    (w1 : (⟨2, ![K, 256]⟩ : Shape).Idx → EReal) (b1 : (⟨1, ![256]⟩ : Shape).Idx → EReal)
    (w2 : (⟨2, ![256, 128]⟩ : Shape).Idx → EReal) (b2 : (⟨1, ![128]⟩ : Shape).Idx → EReal) (r : Fin N) (q : Fin 128) :
    arr hK xa xb w1 b1 w2 b2 (ix2 r q) = rowAt hK xa xb w1 b1 w2 b2 r q := rfl

/-- A row of the tower is decided by that row of the two inputs: arrays (of any heights) that agree on a row give the same output row. -/
theorem rowAt_congr {N N' A B K : ℕ} (hK : A + B = K)
    (xa : (⟨2, ![N, A]⟩ : Shape).Idx → EReal) (xb : (⟨2, ![N, B]⟩ : Shape).Idx → EReal)
    (xa' : (⟨2, ![N', A]⟩ : Shape).Idx → EReal) (xb' : (⟨2, ![N', B]⟩ : Shape).Idx → EReal)
    (w1 : (⟨2, ![K, 256]⟩ : Shape).Idx → EReal) (b1 : (⟨1, ![256]⟩ : Shape).Idx → EReal)
    (w2 : (⟨2, ![256, 128]⟩ : Shape).Idx → EReal) (b2 : (⟨1, ![128]⟩ : Shape).Idx → EReal)
    (r : Fin N) (p : Fin N') (q : Fin 128)
    (ha : ∀ k, xa' (ix2 p k) = xa (ix2 r k)) (hb : ∀ k, xb' (ix2 p k) = xb (ix2 r k)) :
    rowAt hK xa' xb' w1 b1 w2 b2 p q = rowAt hK xa xb w1 b1 w2 b2 r q := by
  unfold rowAt
  rw [funext ha, funext hb]

end Cert.Tower

end
-- ==== Proof.ItemBody.lean ====
/-
  The body of the item tower at one grid point, read at an index: the stored block is the two-layer tower
  (Tower.arr) of the six loaded blocks. At the extended reals the bf16 roundings are the identity, the matrix
  product into a zero accumulator is the plain sum over the contracted axis, and the lane sum is the sum over the row.
-/
import proofs.«427121_j65506841198654_1_alg».proof.Proof.Gen.KernelIdeal.Skeleton
import proofs.«427121_j65506841198654_1_alg».proof.Proof.Tower
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ItemBody

open Cert.KernelIdeal Cert.KernelIdeal.Gen Idealize.ShloMosaic Idealize.ShloMosaic.ValueIdx

/-! ### The two loaded pieces side by side -/

/-- Entry (p, k) of the joined block is Tower.cat of row p of the two pieces. -/
theorem cat_at (x0 : FVec Ideal S2000x2 .f32) (x1 : FVec Ideal S2000x64 .f32) (p : Fin 2000) (k : Fin 66) :
    concatenate S2000x66 1 [⟨S2000x2, x0⟩, ⟨S2000x64, x1⟩] concatenates_S2000x2_S2000x64_S2000x66_d1 (ix2 p k)
      = Cert.Tower.cat (A := 2) (B := 64) (K := 66) rfl (fun k => x0 (ix2 p k)) (fun k => x1 (ix2 p k)) k := by
  unfold Cert.Tower.cat
  by_cases h : k.val < 2
  · rw [dif_pos h]
    exact concatenate_pair_apply_left (1 : Fin 2) x0 x1 concatenates_S2000x2_S2000x64_S2000x66_d1 (ix2 p k) rfl (ix2 p ⟨k.val, h⟩)
      (fun b => match b with | ⟨0, _⟩ => rfl | ⟨1, _⟩ => rfl)
  · rw [dif_neg h]
    exact concatenate_pair_apply_right (1 : Fin 2) x0 x1 concatenates_S2000x2_S2000x64_S2000x66_d1 (ix2 p k) rfl rfl
      (ix2 p ⟨k.val - 2, by have := k.isLt; omega⟩)
      (fun b hb => match b, hb with | ⟨0, _⟩, _ => rfl | ⟨1, _⟩, hb => absurd rfl hb)
      (by show k.val - 2 + 2 = k.val; omega)

/-! ### The first product: rows of 66 against the 66 × 256 weights -/

theorem lhs_mm1_0 (i : S2000x256.Idx) (q : dot_S2000x66_S66x256_S2000x256_1_0_0_1_n_n.contr.Idx) :
    (dot_S2000x66_S66x256_S2000x256_1_0_0_1_n_n.lhsIdx i q 0).val = (i 0).val := by
  unfold DotDims.lhsIdx
  rw [dif_neg (show ¬(0 : Fin S2000x66.rank) ∈ dot_S2000x66_S66x256_S2000x256_1_0_0_1_n_n.lhsBatch by decide), dif_pos (show (0 : Fin S2000x66.rank) ∈ dot_S2000x66_S66x256_S2000x256_1_0_0_1_n_n.lhsNonContracting by decide)]
  rfl
theorem lhs_mm1_1 (i : S2000x256.Idx) (q : dot_S2000x66_S66x256_S2000x256_1_0_0_1_n_n.contr.Idx) :
    (dot_S2000x66_S66x256_S2000x256_1_0_0_1_n_n.lhsIdx i q 1).val = (q ⟨0, by decide⟩).val :=
  dot_S2000x66_S66x256_S2000x256_1_0_0_1_n_n.lhsIdx_val_of_single rfl i q
theorem rhs_mm1_0 (i : S2000x256.Idx) (q : dot_S2000x66_S66x256_S2000x256_1_0_0_1_n_n.contr.Idx) :
    (dot_S2000x66_S66x256_S2000x256_1_0_0_1_n_n.rhsIdx i q 0).val = (q ⟨0, by decide⟩).val :=
  dot_S2000x66_S66x256_S2000x256_1_0_0_1_n_n.rhsIdx_val_of_single rfl i q
theorem rhs_mm1_1 (i : S2000x256.Idx) (q : dot_S2000x66_S66x256_S2000x256_1_0_0_1_n_n.contr.Idx) :
    (dot_S2000x66_S66x256_S2000x256_1_0_0_1_n_n.rhsIdx i q 1).val = (i 1).val := by
  unfold DotDims.rhsIdx
  rw [dif_neg (show ¬(1 : Fin S66x256.rank) ∈ dot_S2000x66_S66x256_S2000x256_1_0_0_1_n_n.rhsBatch by decide), dif_pos (show (1 : Fin S66x256.rank) ∈ dot_S2000x66_S66x256_S2000x256_1_0_0_1_n_n.rhsNonContracting by decide)]
  rfl

/-- Entry (p, j) of the product into the zero accumulator is the sum over the 66 contracted positions. -/
theorem mm1_at (l : FVec Ideal S2000x66 .bf16) (r : FVec Ideal S66x256 .bf16) (p : Fin 2000) (j : Fin 256) :
    matmul dot_S2000x66_S66x256_S2000x256_1_0_0_1_n_n none l r (constant (F := Ideal) S2000x256 .f32 0x00000000#32) (ix2 p j)
      = ∑ k : Fin 66, l (ix2 p k) * r (ix2 k j) := by
  simp only [matmul]
  rw [Ideal.matmul_constant_zero_apply, ← Equiv.sum_comp (contrEquiv1 dot_S2000x66_S66x256_S2000x256_1_0_0_1_n_n 66 rfl rfl).symm]
  refine Finset.sum_congr rfl fun k _ => ?_
  have hk := contrEquiv1_symm_val dot_S2000x66_S66x256_S2000x256_1_0_0_1_n_n 66 rfl rfl k
  have el : dot_S2000x66_S66x256_S2000x256_1_0_0_1_n_n.lhsIdx (ix2 p j) ((contrEquiv1 dot_S2000x66_S66x256_S2000x256_1_0_0_1_n_n 66 rfl rfl).symm k) = ix2 p k := funext fun a => Fin.ext (by
    match a with
    | ⟨0, _⟩ => exact lhs_mm1_0 _ _
    | ⟨1, _⟩ => exact (lhs_mm1_1 _ _).trans hk)
  have er : dot_S2000x66_S66x256_S2000x256_1_0_0_1_n_n.rhsIdx (ix2 p j) ((contrEquiv1 dot_S2000x66_S66x256_S2000x256_1_0_0_1_n_n 66 rfl rfl).symm k) = ix2 k j := funext fun a => Fin.ext (by
    match a with
    | ⟨0, _⟩ => exact (rhs_mm1_0 _ _).trans hk
    | ⟨1, _⟩ => exact rhs_mm1_1 _ _)
  rw [el, er]

/-! ### The second product: rows of 256 against the 256 × 128 weights -/

theorem lhs_mm2_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_mm2_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_mm2_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_mm2_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, j) of the product into the zero accumulator is the sum over the 256 contracted positions. -/
theorem mm2_at (l : FVec Ideal S2000x256 .bf16) (r : FVec Ideal S256x128 .bf16) (p : Fin 2000) (j : Fin 128) :
    matmul dot_S2000x256_S256x128_S2000x128_1_0_0_1_n_n none l r (constant (F := Ideal) S2000x128 .f32 0x00000000#32) (ix2 p j)
      = ∑ k : Fin 256, l (ix2 p k) * r (ix2 k j) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p j) ((contrEquiv1 dot_S2000x256_S256x128_S2000x128_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S2000x256_S256x128_S2000x128_1_0_0_1_n_n.rhsIdx (ix2 p j) ((contrEquiv1 dot_S2000x256_S256x128_S2000x128_1_0_0_1_n_n 256 rfl rfl).symm k) = ix2 k j := funext fun a => Fin.ext (by
    match a with
    | ⟨0, _⟩ => exact (rhs_mm2_0 _ _).trans hk
    | ⟨1, _⟩ => exact rhs_mm2_1 _ _)
  rw [el, er]

/-! ### The bias rows, the lane sum and the norm column -/

/-- The first bias as a row of every one of the 2000 rows. -/
theorem bias1_at (b : FVec Ideal S256 .f32) (p : Fin 2000) (j : Fin 256) :
    broadcastTo S2000x256 (shapeCast S1x256 b shapeCasts_S256_S1x256) broadcasts_S1x256_S2000x256 (ix2 p j) = b (ix1 j) := by
  refine (broadcastTo_apply _ broadcasts_S1x256_S2000x256 (ix2 p j) (ix2 (0 : Fin 1) j)
    (fun a => match a with | ⟨0, _⟩ => rfl | ⟨1, _⟩ => rfl)).trans ?_
  refine (shapeCast_addUnit_apply ![256] b shapeCasts_S256_S1x256 (ix2 (0 : Fin 1) j)).trans ?_
  exact congrArg b (funext fun a => match a with | ⟨0, _⟩ => rfl)

/-- The second bias as a row of every one of the 2000 rows. -/
theorem bias2_at (b : FVec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q)
    (fun a => match a with | ⟨0, _⟩ => rfl | ⟨1, _⟩ => rfl)).trans ?_
  refine (shapeCast_addUnit_apply ![128] b shapeCasts_S128_S1x128 (ix2 (0 : Fin 1) q)).trans ?_
  exact congrArg b (funext fun a => match a with | ⟨0, _⟩ => rfl)

/-- The lane sum of row p is the sum of its 128 entries. -/
theorem rowsum_at (src : FVec Ideal S2000x128 .f32) (p : Fin 2000) :
    multiReduction (F := Ideal) (φ := .f32) .add [1] S2000 src 0x00000000#32 reduces_S2000x128_S2000 (.inl rfl) rfl (ix1 p)
      = ∑ q : Fin 128, src (ix2 p q) := by
  refine (Ideal.multiReduction_add_single src 0x00000000#32 reduces_S2000x128_S2000 (.inl rfl) rfl (ix1 p)).trans ?_
  refine Finset.sum_congr rfl fun q _ => ?_
  exact congrArg src (funext fun a => Fin.ext (by match a with | ⟨0, _⟩ => rfl | ⟨1, _⟩ => rfl))

/-- A vector of 2000 as a column: entry (p, 0) is entry p. -/
theorem col_at {α : Type} (v : S2000.Idx → α) (p : Fin 2000) :
    shapeCast S2000x1 v shapeCasts_S2000_S2000x1 (ix2 p (0 : Fin 1)) = v (ix1 p) := by
  refine shapeCast_apply v shapeCasts_S2000_S2000x1 (ix2 p (0 : Fin 1)) (ix1 p) ?_
  rw [Shape.rowMajor_val_two]
  rfl

/-- A column repeated along 128 lanes: entry (p, q) is the column's entry (p, 0). -/
theorem lanes_at {α : Type} (c : S2000x1.Idx → α) (p : Fin 2000) (q : Fin 128) :
    broadcastTo S2000x128 c broadcasts_S2000x1_S2000x128 (ix2 p q) = c (ix2 p (0 : Fin 1)) :=
  broadcastTo_apply c broadcasts_S2000x1_S2000x128 (ix2 p q) (ix2 p (0 : Fin 1))
    (fun a => match a with | ⟨0, _⟩ => rfl | ⟨1, _⟩ => rfl)

/-! ### The three stages of one row, and the stored block -/

/-- The hidden layer at (p, j), from the joined block's row p. -/
theorem hid_at (X : FVec Ideal S2000x66 .f32) (w : FVec Ideal S66x256 .f32) (b : FVec Ideal S256 .f32) (p : Fin 2000)
    (x : Fin 66 → EReal) (hx : ∀ k, X (ix2 p k) = x k) (j : Fin 256) :
    maximumf (addf (matmul dot_S2000x66_S66x256_S2000x256_1_0_0_1_n_n none (truncf .bf16 X bitsLt_bf16_f32) (truncf .bf16 w bitsLt_bf16_f32)
        (constant (F := Ideal) S2000x256 .f32 0x00000000#32))
        (broadcastTo S2000x256 (shapeCast S1x256 b shapeCasts_S256_S1x256) broadcasts_S1x256_S2000x256))
      (broadcast S2000x256 (Scalar.ofBits (F := Ideal) .f32 0x00000000#32)) (ix2 p j)
      = Cert.Tower.hid x (fun k j => w (ix2 k j)) (fun j => b (ix1 j)) j := by
  unfold Cert.Tower.hid
  rw [maximumf_apply, addf_apply, mm1_at, bias1_at, broadcast_apply]
  simp only [truncf_apply, hx]
  rfl

/-- The output layer at (p, q), from the hidden block's row p. -/
theorem lin_at (H : FVec Ideal S2000x256 .f32) (w : FVec Ideal S256x128 .f32) (b : FVec Ideal S128 .f32) (p : Fin 2000)
    (h : Fin 256 → EReal) (hh : ∀ j, H (ix2 p j) = h j) (q : Fin 128) :
    addf (matmul dot_S2000x256_S256x128_S2000x128_1_0_0_1_n_n none (truncf .bf16 H bitsLt_bf16_f32) (truncf .bf16 w bitsLt_bf16_f32)
        (constant (F := Ideal) S2000x128 .f32 0x00000000#32))
      (broadcastTo S2000x128 (shapeCast S1x128 b shapeCasts_S128_S1x128) broadcasts_S1x128_S2000x128) (ix2 p q)
      = (∑ j : Fin 256, h j * w (ix2 j q)) + b (ix1 q) := by
  rw [addf_apply, mm2_at, bias2_at]
  simp only [truncf_apply, hh]

/-- The normalised row at (p, q), from the output block's row p. -/
theorem row_at (Y : FVec Ideal S2000x128 .f32) (p : Fin 2000) (y : Fin 128 → EReal) (hy : ∀ q, Y (ix2 p q) = y q) (q : Fin 128) :
    divf Y (broadcastTo S2000x128 (maximumf (sqrt (shapeCast S2000x1
        (multiReduction (F := Ideal) (φ := .f32) .add [1] S2000 (mulf Y Y) 0x00000000#32 reduces_S2000x128_S2000 (.inl rfl) rfl)
        shapeCasts_S2000_S2000x1))
      (broadcast S2000x1 (Scalar.ofBits (F := Ideal) .f32 0x2B8CBCCC#32))) broadcasts_S2000x1_S2000x128) (ix2 p q)
      = Ideal.div (y q) (max (Ideal.sqrt (∑ q' : Fin 128, y q' * y q')) (Ideal.ofBits .f32 0x2B8CBCCC#32)) := by
  rw [divf_apply, lanes_at, maximumf_apply, broadcast_apply]
  show Ideal.div _ (max (Ideal.sqrt (shapeCast S2000x1 _ shapeCasts_S2000_S2000x1 (ix2 p (0 : Fin 1)))) _) = _
  rw [col_at, rowsum_at]
  simp only [mulf_apply, hy]
  rfl

/-- The item kernel's stored value is the tower of its loaded blocks: 2000 rows, pieces of 2 and 64 columns. -/
theorem pay_eq (v0 : Vec Ideal S2000x2 .f32) (v1 : Vec Ideal S2000x64 .f32) (v4 : Vec Ideal S66x256 .f32) (v7 : Vec Ideal S256 .f32)
    (v14 : Vec Ideal S256x128 .f32) (v17 : Vec Ideal S128 .f32) :
    k0_pay1 (F := Ideal) v0 v1 v4 v7 v14 v17
      = Cert.Tower.arr (N := 2000) (A := 2) (B := 64) (K := 66) rfl v0 v1 v4 v7 v14 v17 := by
  funext j
  obtain ⟨p, q, rfl⟩ : ∃ (p : Fin 2000) (q : Fin 128), j = ix2 p q := ⟨j 0, j 1, eq_ix2 j⟩
  rw [Cert.Tower.arr_apply]
  unfold k0_pay1 Cert.Tower.rowAt Cert.Tower.row
  exact row_at _ p _ (fun q => lin_at _ v14 v17 p _ (fun j => hid_at _ v4 v7 p _ (fun k => cat_at v0 v1 p k) j) q) q

end Cert.KernelIdeal.ItemBody

end
-- ==== Proof.ItemArray.lean ====
/-
  The item tower's output array after its region: grid point t writes rows 2000 t … 2000 t + 1999, each row the tower of
  the same row of the two input arrays, so the hundred blocks together are the tower of the whole input arrays.
-/
import proofs.«427121_j65506841198654_1_alg».proof.Proof.Gen.KernelIdeal.Frame
import proofs.«427121_j65506841198654_1_alg».proof.Proof.ItemBody
import Idealize.ShloMosaic.Lib.ValueIdx
import Idealize.ShloMosaic.Lib.ValueLayout
import Idealize.ShloMosaic.Lib.Pipeline.Value
import Idealize.ShloMosaic.PureOps.Ideal.Laws

noncomputable section
set_option maxRecDepth 16384

namespace Cert.KernelIdeal.ItemArray

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The loads and the store of the body sit at the origin of their buffers. -/
theorem origin2 : (![0, 0] : Fin 2 → Nat) = fun _ => 0 :=
  funext fun a => by match a with | ⟨0, _⟩ => rfl | ⟨1, _⟩ => rfl

theorem origin1 : (![0] : Fin 1 → Nat) = fun _ => 0 :=
  funext fun a => by match a with | ⟨0, _⟩ => rfl

/-- The block indices, decided over the hundred grid points: the two input row blocks move with the output row block,
    which at point t is block t; every weight array is fetched whole, at block 0. -/
theorem block_indices : ∀ t : Fin cfg0.N,
    win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 ∧ t.val < 100 :=
  (by decide +kernel : ∀ t : Fin grid0.N, _)

/-- Row p of a block against row r of the whole arrays: when the block's two input rows are the arrays' rows r and the
    weights are the same, the tower's rows agree. -/
theorem row_of_block
    (x0 : S2000x2.Idx → EReal) (x1 : S2000x64.Idx → EReal) (x2 : S66x256.Idx → EReal) (x3 : S256.Idx → EReal)
    (x4 : S256x128.Idx → EReal) (x5 : S128.Idx → EReal)
    (a0 : S200000x2.Idx → EReal) (a1 : S200000x64.Idx → EReal) (w1 : S66x256.Idx → EReal) (b1 : S256.Idx → EReal)
    (w2 : S256x128.Idx → EReal) (b2 : S128.Idx → EReal)
    (e2 : x2 = w1) (e3 : x3 = b1) (e4 : x4 = w2) (e5 : x5 = b2)
    (p : Fin 2000) (r : Fin 200000) (q : Fin 128)
    (h0 : ∀ k : Fin 2, x0 (ix2 p k) = a0 (ix2 r k)) (h1 : ∀ k : Fin 64, x1 (ix2 p k) = a1 (ix2 r k)) :
    Cert.Tower.arr (N := 2000) (A := 2) (B := 64) (K := 66) rfl x0 x1 x2 x3 x4 x5 (ix2 p q)
      = Cert.Tower.arr (N := 200000) (A := 2) (B := 64) (K := 66) rfl a0 a1 w1 b1 w2 b2 (ix2 r q) := by
  subst e2 e3 e4 e5
  rw [Cert.Tower.arr_apply, Cert.Tower.arr_apply]
  exact Cert.Tower.rowAt_congr rfl a0 a1 x0 x1 x2 x3 x4 x5 r p q h0 h1

/-- A weight window's block is its whole array: block index 0, block size the array's. -/
theorem weights1_whole (c : Dev nD) (t : Fin cfg0.N) :
    (iblk0 (F := Ideal) V c 2 t : S66x256.Idx → EReal) = V c main_arg3 := by
  obtain ⟨-, -, -, -, e0, e1, -⟩ := block_indices t
  funext y
  show V c main_arg3 (((cfg0.win 2).blk t).view.emb y) = V c main_arg3 y
  refine congrArg (V c main_arg3) ?_
  funext a; apply Fin.ext
  match a with
  | ⟨0, _⟩ => show win0_2.index t (0 : Fin 2) * 66 + 1 * (y 0).val = (y 0).val; omega
  | ⟨1, _⟩ => show win0_2.index t (1 : Fin 2) * 256 + 1 * (y 1).val = (y 1).val; omega

theorem bias1_whole (c : Dev nD) (t : Fin cfg0.N) :
    (iblk0 (F := Ideal) V c 3 t : S256.Idx → EReal) = V c main_arg4 := by
  obtain ⟨-, -, -, -, -, -, e0, -⟩ := block_indices t
  funext y
  show V c main_arg4 (((cfg0.win 3).blk t).view.emb y) = V c main_arg4 y
  refine congrArg (V c main_arg4) ?_
  funext a; apply Fin.ext
  match a with
  | ⟨0, _⟩ => show win0_3.index t (0 : Fin 1) * 256 + 1 * (y 0).val = (y 0).val; omega

theorem weights2_whole (c : Dev nD) (t : Fin cfg0.N) :
    (iblk0 (F := Ideal) V c 4 t : S256x128.Idx → EReal) = V c main_arg5 := by
  obtain ⟨-, -, -, -, -, -, -, e0, e1, -⟩ := block_indices t
  funext y
  show V c main_arg5 (((cfg0.win 4).blk t).view.emb y) = V c main_arg5 y
  refine congrArg (V c main_arg5) ?_
  funext a; apply Fin.ext
  match a with
  | ⟨0, _⟩ => show win0_4.index t (0 : Fin 2) * 256 + 1 * (y 0).val = (y 0).val; omega
  | ⟨1, _⟩ => show win0_4.index t (1 : Fin 2) * 128 + 1 * (y 1).val = (y 1).val; omega

theorem bias2_whole (c : Dev nD) (t : Fin cfg0.N) :
    (iblk0 (F := Ideal) V c 5 t : S128.Idx → EReal) = V c main_arg6 := by
  obtain ⟨-, -, -, -, -, -, -, -, -, e0, -⟩ := block_indices t
  funext y
  show V c main_arg6 (((cfg0.win 5).blk t).view.emb y) = V c main_arg6 y
  refine congrArg (V c main_arg6) ?_
  funext a; apply Fin.ext
  match a with
  | ⟨0, _⟩ => show win0_5.index t (0 : Fin 1) * 128 + 1 * (y 0).val = (y 0).val; omega

/-- Row p of the first input's block at point t is row 2000 t + p of its array. -/
theorem first_rows (c : Dev nD) (t : Fin cfg0.N) (p : Fin 2000) (hr : 2000 * t.val + p.val < 200000) (k : Fin 2) :
    (iblk0 (F := Ideal) V c 0 t : S2000x2.Idx → EReal) (ix2 p k)
      = (V c main_arg0 : S200000x2.Idx → EReal) (ix2 (⟨2000 * t.val + p.val, hr⟩ : Fin 200000) k) := by
  obtain ⟨e0, e1, -, -, -, -, -, -, -, -, e6, -⟩ := block_indices t
  show V c main_arg0 (((cfg0.win 0).blk t).view.emb (ix2 p k)) = V c main_arg0 _
  refine congrArg (V c main_arg0) ?_
  funext a; apply Fin.ext
  match a with
  | ⟨0, _⟩ => show win0_0.index t (0 : Fin 2) * 2000 + 1 * p.val = 2000 * t.val + p.val; omega
  | ⟨1, _⟩ => show win0_0.index t (1 : Fin 2) * 2 + 1 * k.val = k.val; omega

/-- Row p of the second input's block at point t is row 2000 t + p of its array. -/
theorem second_rows (c : Dev nD) (t : Fin cfg0.N) (p : Fin 2000) (hr : 2000 * t.val + p.val < 200000) (k : Fin 64) :
    (iblk0 (F := Ideal) V c 1 t : S2000x64.Idx → EReal) (ix2 p k)
      = (V c main_arg1 : S200000x64.Idx → EReal) (ix2 (⟨2000 * t.val + p.val, hr⟩ : Fin 200000) k) := by
  obtain ⟨-, -, e0, e1, -, -, -, -, -, -, e6, -⟩ := block_indices t
  show V c main_arg1 (((cfg0.win 1).blk t).view.emb (ix2 p k)) = V c main_arg1 _
  refine congrArg (V c main_arg1) ?_
  funext a; apply Fin.ext
  match a with
  | ⟨0, _⟩ => show win0_1.index t (0 : Fin 2) * 2000 + 1 * p.val = 2000 * t.val + p.val; omega
  | ⟨1, _⟩ => show win0_1.index t (1 : Fin 2) * 64 + 1 * k.val = k.val; omega

/-- Entry (p, q) of the output block at point t sits at (2000 t + p, q) of the output array. -/
theorem out_rows (t : Fin cfg0.N) (p : Fin 2000) (hr : 2000 * t.val + p.val < 200000) (q : Fin 128) :
    ((cfg0.win 6).blk t).view.emb (ix2 p q) = ix2 (⟨2000 * t.val + p.val, hr⟩ : Fin 200000) q := by
  obtain ⟨-, -, -, -, -, -, -, -, -, -, e0, e1, -⟩ := block_indices t
  funext a; apply Fin.ext
  match a with
  | ⟨0, _⟩ => show win0_6.index t (0 : Fin 2) * 2000 + 1 * p.val = 2000 * t.val + p.val; omega
  | ⟨1, _⟩ => show win0_6.index t (1 : Fin 2) * 128 + 1 * q.val = q.val; omega

/-- What point t writes back is block t of the tower of the whole arrays. -/
theorem written_block (c : Dev nD) (t : Fin cfg0.N) :
    (dat0 (F := Ideal) V c).flushed 6 t
      = ((cfg0.win 6).blk t).view.read (Elt Ideal)
          (Cert.Tower.arr (N := 200000) (A := 2) (B := 64) (K := 66) rfl (V c main_arg0) (V c main_arg1) (V c main_arg3)
          (V c main_arg4) (V c main_arg5) (V c main_arg6)) := by
  show (cfg0.win 6).cut (grid0.coords t) ((dat0 (F := Ideal) V c).after 6 t) = _
  rw [after0_6]
  unfold out0_6
  rw [View.canon_unit_zero origin2]
  simp only [View.ld_unit_zero (S := S2000x2) origin2, View.ld_unit_zero (S := S2000x64) origin2,
    View.ld_unit_zero (S := S66x256) origin2, View.ld_unit_zero (S := S256) origin1,
    View.ld_unit_zero (S := S256x128) origin2, View.ld_unit_zero (S := S128) origin1]
  rw [ItemBody.pay_eq]
  funext y
  obtain ⟨p, q, rfl⟩ : ∃ (p : Fin 2000) (q : Fin 128), y = ix2 p q := ⟨y 0, y 1, eq_ix2 y⟩
  have hr : 2000 * t.val + p.val < 200000 := by
    have ht := (block_indices t).2.2.2.2.2.2.2.2.2.2.2.2
    have hp := p.isLt
    omega
  show Cert.Tower.arr (N := 2000) (A := 2) (B := 64) (K := 66) rfl (iblk0 (F := Ideal) V c 0 t) (iblk0 (F := Ideal) V c 1 t)
        (iblk0 (F := Ideal) V c 2 t) (iblk0 (F := Ideal) V c 3 t) (iblk0 (F := Ideal) V c 4 t) (iblk0 (F := Ideal) V c 5 t) (ix2 p q)
      = (Cert.Tower.arr (N := 200000) (A := 2) (B := 64) (K := 66) rfl (V c main_arg0) (V c main_arg1) (V c main_arg3)
          (V c main_arg4) (V c main_arg5) (V c main_arg6)) (((cfg0.win 6).blk t).view.emb (ix2 p q))
  refine (row_of_block (iblk0 (F := Ideal) V c 0 t) (iblk0 (F := Ideal) V c 1 t) (iblk0 (F := Ideal) V c 2 t)
    (iblk0 (F := Ideal) V c 3 t) (iblk0 (F := Ideal) V c 4 t) (iblk0 (F := Ideal) V c 5 t)
    (V c main_arg0) (V c main_arg1) (V c main_arg3) (V c main_arg4) (V c main_arg5) (V c main_arg6)
    (weights1_whole V c t) (bias1_whole V c t) (weights2_whole V c t) (bias2_whole V c t)
    p ⟨2000 * t.val + p.val, hr⟩ q (first_rows V c t p hr) (second_rows V c t p hr)).trans ?_
  exact congrArg (Cert.Tower.arr (N := 200000) (A := 2) (B := 64) (K := 66) rfl (V c main_arg0) (V c main_arg1) (V c main_arg3)
          (V c main_arg4) (V c main_arg5) (V c main_arg6)) (out_rows t p hr q).symm

/-- An index of the output array is in point t's block iff each coordinate is in the block's range on its axis. -/
theorem mem_block (t : Fin cfg0.N) (i : S200000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v0).slice (win0_6.rect t)).set ↔ _
  rw [View.set_slice_whole, Rect.mem_set_unit]
  exact Iff.rfl

/-- Row r of the output array is written by point r / 2000: the hundred blocks cover the array. -/
theorem covered (i : S200000x128.Idx) :
    ∃ t : Fin cfg0.N, (cfg0.win 6).flush t = true ∧ i ∈ ((cfg0.win 6).blk t).view.set := by
  have hi0 : (i 0).val < 200000 := (i 0).isLt
  have hi1 : (i 1).val < 128 := (i 1).isLt
  have hN : (i 0).val / 2000 < cfg0.N := by
    show (i 0).val / 2000 < grid0.N
    rw [N_0]; omega
  obtain ⟨t, ht⟩ : ∃ t : Fin cfg0.N, t.val = (i 0).val / 2000 := ⟨⟨(i 0).val / 2000, hN⟩, rfl⟩
  obtain ⟨-, -, -, -, -, -, -, -, -, -, e0, e1, -⟩ := block_indices t
  refine ⟨t, flush0_6 t, ?_⟩
  rw [mem_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- Whatever the region finds in its arrays (V), it leaves the tower of the six input arrays in its output array. -/
theorem item_array (c : Dev nD) :
    (dat0 (F := Ideal) V c).arrAt 6 cfg0.N
      = Cert.Tower.arr (N := 200000) (A := 2) (B := 64) (K := 66) rfl (V c main_arg0) (V c main_arg1) (V c main_arg3)
          (V c main_arg4) (V c main_arg5) (V c main_arg6) := by
  exact (dat0 (F := Ideal) V c).arrAt_eq_of_cover 6
    (Cert.Tower.arr (N := 200000) (A := 2) (B := 64) (K := 66) rfl (V c main_arg0) (V c main_arg1) (V c main_arg3)
          (V c main_arg4) (V c main_arg5) (V c main_arg6))
    (fun t _ => written_block V c t) covered

end Cert.KernelIdeal.ItemArray

end
-- ==== Proof.UserBody.lean ====
/-
  The body of the user tower at one grid point, read at an index: the stored block is the two-layer tower
  (Tower.arr) of the six loaded blocks, the input row being 64 columns of the first block beside 128 of the second.
-/
import proofs.«427121_j65506841198654_1_alg».proof.Proof.Gen.KernelIdeal.Skeleton
import proofs.«427121_j65506841198654_1_alg».proof.Proof.Tower
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.UserBody

open Cert.KernelIdeal Cert.KernelIdeal.Gen Idealize.ShloMosaic Idealize.ShloMosaic.ValueIdx

/-! ### The two loaded pieces side by side -/

/-- Entry (p, k) of the joined block is Tower.cat of row p of the two pieces. -/
theorem cat_at (x0 : FVec Ideal S2000x64 .f32) (x1 : FVec Ideal S2000x128 .f32) (p : Fin 2000) (k : Fin 192) :
    concatenate S2000x192 1 [⟨S2000x64, x0⟩, ⟨S2000x128, x1⟩] concatenates_S2000x64_S2000x128_S2000x192_d1 (ix2 p k)
      = Cert.Tower.cat (A := 64) (B := 128) (K := 192) rfl (fun k => x0 (ix2 p k)) (fun k => x1 (ix2 p k)) k := by
  unfold Cert.Tower.cat
  by_cases h : k.val < 64
  · rw [dif_pos h]
    exact concatenate_pair_apply_left (1 : Fin 2) x0 x1 concatenates_S2000x64_S2000x128_S2000x192_d1 (ix2 p k) rfl (ix2 p ⟨k.val, h⟩)
      (fun b => match b with | ⟨0, _⟩ => rfl | ⟨1, _⟩ => rfl)
  · rw [dif_neg h]
    exact concatenate_pair_apply_right (1 : Fin 2) x0 x1 concatenates_S2000x64_S2000x128_S2000x192_d1 (ix2 p k) rfl rfl
      (ix2 p ⟨k.val - 64, by have := k.isLt; omega⟩)
      (fun b hb => match b, hb with | ⟨0, _⟩, _ => rfl | ⟨1, _⟩, hb => absurd rfl hb)
      (by show k.val - 64 + 64 = k.val; omega)

/-! ### The first product: rows of 192 against the 192 × 256 weights -/

theorem lhs_mm1_0 (i : S2000x256.Idx) (q : dot_S2000x192_S192x256_S2000x256_1_0_0_1_n_n.contr.Idx) :
    (dot_S2000x192_S192x256_S2000x256_1_0_0_1_n_n.lhsIdx i q 0).val = (i 0).val := by
  unfold DotDims.lhsIdx
  rw [dif_neg (show ¬(0 : Fin S2000x192.rank) ∈ dot_S2000x192_S192x256_S2000x256_1_0_0_1_n_n.lhsBatch by decide), dif_pos (show (0 : Fin S2000x192.rank) ∈ dot_S2000x192_S192x256_S2000x256_1_0_0_1_n_n.lhsNonContracting by decide)]
  rfl
theorem lhs_mm1_1 (i : S2000x256.Idx) (q : dot_S2000x192_S192x256_S2000x256_1_0_0_1_n_n.contr.Idx) :
    (dot_S2000x192_S192x256_S2000x256_1_0_0_1_n_n.lhsIdx i q 1).val = (q ⟨0, by decide⟩).val :=
  dot_S2000x192_S192x256_S2000x256_1_0_0_1_n_n.lhsIdx_val_of_single rfl i q
theorem rhs_mm1_0 (i : S2000x256.Idx) (q : dot_S2000x192_S192x256_S2000x256_1_0_0_1_n_n.contr.Idx) :
    (dot_S2000x192_S192x256_S2000x256_1_0_0_1_n_n.rhsIdx i q 0).val = (q ⟨0, by decide⟩).val :=
  dot_S2000x192_S192x256_S2000x256_1_0_0_1_n_n.rhsIdx_val_of_single rfl i q
theorem rhs_mm1_1 (i : S2000x256.Idx) (q : dot_S2000x192_S192x256_S2000x256_1_0_0_1_n_n.contr.Idx) :
    (dot_S2000x192_S192x256_S2000x256_1_0_0_1_n_n.rhsIdx i q 1).val = (i 1).val := by
  unfold DotDims.rhsIdx
  rw [dif_neg (show ¬(1 : Fin S192x256.rank) ∈ dot_S2000x192_S192x256_S2000x256_1_0_0_1_n_n.rhsBatch by decide), dif_pos (show (1 : Fin S192x256.rank) ∈ dot_S2000x192_S192x256_S2000x256_1_0_0_1_n_n.rhsNonContracting by decide)]
  rfl

/-- Entry (p, j) of the product into the zero accumulator is the sum over the 192 contracted positions. -/
theorem mm1_at (l : FVec Ideal S2000x192 .bf16) (r : FVec Ideal S192x256 .bf16) (p : Fin 2000) (j : Fin 256) :
    matmul dot_S2000x192_S192x256_S2000x256_1_0_0_1_n_n none l r (constant (F := Ideal) S2000x256 .f32 0x00000000#32) (ix2 p j)
      = ∑ k : Fin 192, l (ix2 p k) * r (ix2 k j) := by
  simp only [matmul]
  rw [Ideal.matmul_constant_zero_apply, ← Equiv.sum_comp (contrEquiv1 dot_S2000x192_S192x256_S2000x256_1_0_0_1_n_n 192 rfl rfl).symm]
  refine Finset.sum_congr rfl fun k _ => ?_
  have hk := contrEquiv1_symm_val dot_S2000x192_S192x256_S2000x256_1_0_0_1_n_n 192 rfl rfl k
  have el : dot_S2000x192_S192x256_S2000x256_1_0_0_1_n_n.lhsIdx (ix2 p j) ((contrEquiv1 dot_S2000x192_S192x256_S2000x256_1_0_0_1_n_n 192 rfl rfl).symm k) = ix2 p k := funext fun a => Fin.ext (by
    match a with
    | ⟨0, _⟩ => exact lhs_mm1_0 _ _
    | ⟨1, _⟩ => exact (lhs_mm1_1 _ _).trans hk)
  have er : dot_S2000x192_S192x256_S2000x256_1_0_0_1_n_n.rhsIdx (ix2 p j) ((contrEquiv1 dot_S2000x192_S192x256_S2000x256_1_0_0_1_n_n 192 rfl rfl).symm k) = ix2 k j := funext fun a => Fin.ext (by
    match a with
    | ⟨0, _⟩ => exact (rhs_mm1_0 _ _).trans hk
    | ⟨1, _⟩ => exact rhs_mm1_1 _ _)
  rw [el, er]

/-! ### The second product: rows of 256 against the 256 × 128 weights -/

theorem lhs_mm2_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_mm2_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_mm2_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_mm2_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, j) of the product into the zero accumulator is the sum over the 256 contracted positions. -/
theorem mm2_at (l : FVec Ideal S2000x256 .bf16) (r : FVec Ideal S256x128 .bf16) (p : Fin 2000) (j : Fin 128) :
    matmul dot_S2000x256_S256x128_S2000x128_1_0_0_1_n_n none l r (constant (F := Ideal) S2000x128 .f32 0x00000000#32) (ix2 p j)
      = ∑ k : Fin 256, l (ix2 p k) * r (ix2 k j) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p j) ((contrEquiv1 dot_S2000x256_S256x128_S2000x128_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S2000x256_S256x128_S2000x128_1_0_0_1_n_n.rhsIdx (ix2 p j) ((contrEquiv1 dot_S2000x256_S256x128_S2000x128_1_0_0_1_n_n 256 rfl rfl).symm k) = ix2 k j := funext fun a => Fin.ext (by
    match a with
    | ⟨0, _⟩ => exact (rhs_mm2_0 _ _).trans hk
    | ⟨1, _⟩ => exact rhs_mm2_1 _ _)
  rw [el, er]

/-! ### The bias rows, the lane sum and the norm column -/

/-- The first bias as a row of every one of the 2000 rows. -/
theorem bias1_at (b : FVec Ideal S256 .f32) (p : Fin 2000) (j : Fin 256) :
    broadcastTo S2000x256 (shapeCast S1x256 b shapeCasts_S256_S1x256) broadcasts_S1x256_S2000x256 (ix2 p j) = b (ix1 j) := by
  refine (broadcastTo_apply _ broadcasts_S1x256_S2000x256 (ix2 p j) (ix2 (0 : Fin 1) j)
    (fun a => match a with | ⟨0, _⟩ => rfl | ⟨1, _⟩ => rfl)).trans ?_
  refine (shapeCast_addUnit_apply ![256] b shapeCasts_S256_S1x256 (ix2 (0 : Fin 1) j)).trans ?_
  exact congrArg b (funext fun a => match a with | ⟨0, _⟩ => rfl)

/-- The second bias as a row of every one of the 2000 rows. -/
theorem bias2_at (b : FVec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q)
    (fun a => match a with | ⟨0, _⟩ => rfl | ⟨1, _⟩ => rfl)).trans ?_
  refine (shapeCast_addUnit_apply ![128] b shapeCasts_S128_S1x128 (ix2 (0 : Fin 1) q)).trans ?_
  exact congrArg b (funext fun a => match a with | ⟨0, _⟩ => rfl)

/-- The lane sum of row p is the sum of its 128 entries. -/
theorem rowsum_at (src : FVec Ideal S2000x128 .f32) (p : Fin 2000) :
    multiReduction (F := Ideal) (φ := .f32) .add [1] S2000 src 0x00000000#32 reduces_S2000x128_S2000 (.inl rfl) rfl (ix1 p)
      = ∑ q : Fin 128, src (ix2 p q) := by
  refine (Ideal.multiReduction_add_single src 0x00000000#32 reduces_S2000x128_S2000 (.inl rfl) rfl (ix1 p)).trans ?_
  refine Finset.sum_congr rfl fun q _ => ?_
  exact congrArg src (funext fun a => Fin.ext (by match a with | ⟨0, _⟩ => rfl | ⟨1, _⟩ => rfl))

/-- A vector of 2000 as a column: entry (p, 0) is entry p. -/
theorem col_at {α : Type} (v : S2000.Idx → α) (p : Fin 2000) :
    shapeCast S2000x1 v shapeCasts_S2000_S2000x1 (ix2 p (0 : Fin 1)) = v (ix1 p) := by
  refine shapeCast_apply v shapeCasts_S2000_S2000x1 (ix2 p (0 : Fin 1)) (ix1 p) ?_
  rw [Shape.rowMajor_val_two]
  rfl

/-- A column repeated along 128 lanes: entry (p, q) is the column's entry (p, 0). -/
theorem lanes_at {α : Type} (c : S2000x1.Idx → α) (p : Fin 2000) (q : Fin 128) :
    broadcastTo S2000x128 c broadcasts_S2000x1_S2000x128 (ix2 p q) = c (ix2 p (0 : Fin 1)) :=
  broadcastTo_apply c broadcasts_S2000x1_S2000x128 (ix2 p q) (ix2 p (0 : Fin 1))
    (fun a => match a with | ⟨0, _⟩ => rfl | ⟨1, _⟩ => rfl)

/-! ### The three stages of one row, and the stored block -/

/-- The hidden layer at (p, j), from the joined block's row p. -/
theorem hid_at (X : FVec Ideal S2000x192 .f32) (w : FVec Ideal S192x256 .f32) (b : FVec Ideal S256 .f32) (p : Fin 2000)
    (x : Fin 192 → EReal) (hx : ∀ k, X (ix2 p k) = x k) (j : Fin 256) :
    maximumf (addf (matmul dot_S2000x192_S192x256_S2000x256_1_0_0_1_n_n none (truncf .bf16 X bitsLt_bf16_f32) (truncf .bf16 w bitsLt_bf16_f32)
        (constant (F := Ideal) S2000x256 .f32 0x00000000#32))
        (broadcastTo S2000x256 (shapeCast S1x256 b shapeCasts_S256_S1x256) broadcasts_S1x256_S2000x256))
      (broadcast S2000x256 (Scalar.ofBits (F := Ideal) .f32 0x00000000#32)) (ix2 p j)
      = Cert.Tower.hid x (fun k j => w (ix2 k j)) (fun j => b (ix1 j)) j := by
  unfold Cert.Tower.hid
  rw [maximumf_apply, addf_apply, mm1_at, bias1_at, broadcast_apply]
  simp only [truncf_apply, hx]
  rfl

/-- The output layer at (p, q), from the hidden block's row p. -/
theorem lin_at (H : FVec Ideal S2000x256 .f32) (w : FVec Ideal S256x128 .f32) (b : FVec Ideal S128 .f32) (p : Fin 2000)
    (h : Fin 256 → EReal) (hh : ∀ j, H (ix2 p j) = h j) (q : Fin 128) :
    addf (matmul dot_S2000x256_S256x128_S2000x128_1_0_0_1_n_n none (truncf .bf16 H bitsLt_bf16_f32) (truncf .bf16 w bitsLt_bf16_f32)
        (constant (F := Ideal) S2000x128 .f32 0x00000000#32))
      (broadcastTo S2000x128 (shapeCast S1x128 b shapeCasts_S128_S1x128) broadcasts_S1x128_S2000x128) (ix2 p q)
      = (∑ j : Fin 256, h j * w (ix2 j q)) + b (ix1 q) := by
  rw [addf_apply, mm2_at, bias2_at]
  simp only [truncf_apply, hh]

/-- The normalised row at (p, q), from the output block's row p. -/
theorem row_at (Y : FVec Ideal S2000x128 .f32) (p : Fin 2000) (y : Fin 128 → EReal) (hy : ∀ q, Y (ix2 p q) = y q) (q : Fin 128) :
    divf Y (broadcastTo S2000x128 (maximumf (sqrt (shapeCast S2000x1
        (multiReduction (F := Ideal) (φ := .f32) .add [1] S2000 (mulf Y Y) 0x00000000#32 reduces_S2000x128_S2000 (.inl rfl) rfl)
        shapeCasts_S2000_S2000x1))
      (broadcast S2000x1 (Scalar.ofBits (F := Ideal) .f32 0x2B8CBCCC#32))) broadcasts_S2000x1_S2000x128) (ix2 p q)
      = Ideal.div (y q) (max (Ideal.sqrt (∑ q' : Fin 128, y q' * y q')) (Ideal.ofBits .f32 0x2B8CBCCC#32)) := by
  rw [divf_apply, lanes_at, maximumf_apply, broadcast_apply]
  show Ideal.div _ (max (Ideal.sqrt (shapeCast S2000x1 _ shapeCasts_S2000_S2000x1 (ix2 p (0 : Fin 1)))) _) = _
  rw [col_at, rowsum_at]
  simp only [mulf_apply, hy]
  rfl

/-- The user kernel's stored value is the tower of its loaded blocks: 2000 rows, pieces of 64 and 128 columns. -/
theorem pay_eq (v0 : Vec Ideal S2000x64 .f32) (v2 : Vec Ideal S2000x128 .f32) (v6 : Vec Ideal S192x256 .f32) (v9 : Vec Ideal S256 .f32)
    (v16 : Vec Ideal S256x128 .f32) (v19 : Vec Ideal S128 .f32) :
    k1_pay1 (F := Ideal) v0 v2 v6 v9 v16 v19
      = Cert.Tower.arr (N := 2000) (A := 64) (B := 128) (K := 192) rfl v0 v2 v6 v9 v16 v19 := by
  funext j
  obtain ⟨p, q, rfl⟩ : ∃ (p : Fin 2000) (q : Fin 128), j = ix2 p q := ⟨j 0, j 1, eq_ix2 j⟩
  rw [Cert.Tower.arr_apply]
  unfold k1_pay1 Cert.Tower.rowAt Cert.Tower.row
  rw [shapeCast_self v0 shapeCasts_S2000x64_S2000x64, shapeCast_self v2 shapeCasts_S2000x128_S2000x128]
  exact row_at _ p _ (fun q => lin_at _ v16 v19 p _ (fun j => hid_at _ v6 v9 p _ (fun k => cat_at v0 v2 p k) j) q) q

end Cert.KernelIdeal.UserBody

end
-- ==== Proof.UserArray.lean ====
/-
  The user tower's output array after its region: grid point t writes rows 2000 t … 2000 t + 1999, each row the tower of
  the same row of the two input arrays, so the fifty blocks together are the tower of the whole input arrays.
-/
import proofs.«427121_j65506841198654_1_alg».proof.Proof.Gen.KernelIdeal.Frame
import proofs.«427121_j65506841198654_1_alg».proof.Proof.UserBody
import Idealize.ShloMosaic.Lib.ValueIdx
import Idealize.ShloMosaic.Lib.ValueLayout
import Idealize.ShloMosaic.Lib.Pipeline.Value
import Idealize.ShloMosaic.PureOps.Ideal.Laws

noncomputable section
set_option maxRecDepth 16384

namespace Cert.KernelIdeal.UserArray

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The loads and the store of the body sit at the origin of their buffers. -/
theorem origin2 : (![0, 0] : Fin 2 → Nat) = fun _ => 0 :=
  funext fun a => by match a with | ⟨0, _⟩ => rfl | ⟨1, _⟩ => rfl

theorem origin1 : (![0] : Fin 1 → Nat) = fun _ => 0 :=
  funext fun a => by match a with | ⟨0, _⟩ => rfl

/-- The block indices, decided over the fifty grid points: the two input row blocks move with the output row block,
    which at point t is block t; every weight array is fetched whole, at block 0. -/
theorem block_indices : ∀ t : Fin cfg1.N,
    win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 ∧ t.val < 50 :=
  (by decide +kernel : ∀ t : Fin grid1.N, _)

/-- Row p of a block against row r of the whole arrays: when the block's two input rows are the arrays' rows r and the
    weights are the same, the tower's rows agree. -/
theorem row_of_block
    (x0 : S2000x64.Idx → EReal) (x1 : S2000x128.Idx → EReal) (x2 : S192x256.Idx → EReal) (x3 : S256.Idx → EReal)
    (x4 : S256x128.Idx → EReal) (x5 : S128.Idx → EReal)
    (a0 : S100000x64.Idx → EReal) (a1 : S100000x128.Idx → EReal) (w1 : S192x256.Idx → EReal) (b1 : S256.Idx → EReal)
    (w2 : S256x128.Idx → EReal) (b2 : S128.Idx → EReal)
    (e2 : x2 = w1) (e3 : x3 = b1) (e4 : x4 = w2) (e5 : x5 = b2)
    (p : Fin 2000) (r : Fin 100000) (q : Fin 128)
    (h0 : ∀ k : Fin 64, x0 (ix2 p k) = a0 (ix2 r k)) (h1 : ∀ k : Fin 128, x1 (ix2 p k) = a1 (ix2 r k)) :
    Cert.Tower.arr (N := 2000) (A := 64) (B := 128) (K := 192) rfl x0 x1 x2 x3 x4 x5 (ix2 p q)
      = Cert.Tower.arr (N := 100000) (A := 64) (B := 128) (K := 192) rfl a0 a1 w1 b1 w2 b2 (ix2 r q) := by
  subst e2 e3 e4 e5
  rw [Cert.Tower.arr_apply, Cert.Tower.arr_apply]
  exact Cert.Tower.rowAt_congr rfl a0 a1 x0 x1 x2 x3 x4 x5 r p q h0 h1

/-- A weight window's block is its whole array: block index 0, block size the array's. -/
theorem weights1_whole (c : Dev nD) (t : Fin cfg1.N) :
    (iblk1 (F := Ideal) V c 2 t : S192x256.Idx → EReal) = V c main_arg7 := by
  obtain ⟨-, -, -, -, e0, e1, -⟩ := block_indices t
  funext y
  show V c main_arg7 (((cfg1.win 2).blk t).view.emb y) = V c main_arg7 y
  refine congrArg (V c main_arg7) ?_
  funext a; apply Fin.ext
  match a with
  | ⟨0, _⟩ => show win1_2.index t (0 : Fin 2) * 192 + 1 * (y 0).val = (y 0).val; omega
  | ⟨1, _⟩ => show win1_2.index t (1 : Fin 2) * 256 + 1 * (y 1).val = (y 1).val; omega

theorem bias1_whole (c : Dev nD) (t : Fin cfg1.N) :
    (iblk1 (F := Ideal) V c 3 t : S256.Idx → EReal) = V c main_arg8 := by
  obtain ⟨-, -, -, -, -, -, e0, -⟩ := block_indices t
  funext y
  show V c main_arg8 (((cfg1.win 3).blk t).view.emb y) = V c main_arg8 y
  refine congrArg (V c main_arg8) ?_
  funext a; apply Fin.ext
  match a with
  | ⟨0, _⟩ => show win1_3.index t (0 : Fin 1) * 256 + 1 * (y 0).val = (y 0).val; omega

theorem weights2_whole (c : Dev nD) (t : Fin cfg1.N) :
    (iblk1 (F := Ideal) V c 4 t : S256x128.Idx → EReal) = V c main_arg9 := by
  obtain ⟨-, -, -, -, -, -, -, e0, e1, -⟩ := block_indices t
  funext y
  show V c main_arg9 (((cfg1.win 4).blk t).view.emb y) = V c main_arg9 y
  refine congrArg (V c main_arg9) ?_
  funext a; apply Fin.ext
  match a with
  | ⟨0, _⟩ => show win1_4.index t (0 : Fin 2) * 256 + 1 * (y 0).val = (y 0).val; omega
  | ⟨1, _⟩ => show win1_4.index t (1 : Fin 2) * 128 + 1 * (y 1).val = (y 1).val; omega

theorem bias2_whole (c : Dev nD) (t : Fin cfg1.N) :
    (iblk1 (F := Ideal) V c 5 t : S128.Idx → EReal) = V c main_arg10 := by
  obtain ⟨-, -, -, -, -, -, -, -, -, e0, -⟩ := block_indices t
  funext y
  show V c main_arg10 (((cfg1.win 5).blk t).view.emb y) = V c main_arg10 y
  refine congrArg (V c main_arg10) ?_
  funext a; apply Fin.ext
  match a with
  | ⟨0, _⟩ => show win1_5.index t (0 : Fin 1) * 128 + 1 * (y 0).val = (y 0).val; omega

/-- Row p of the first input's block at point t is row 2000 t + p of its array. -/
theorem first_rows (c : Dev nD) (t : Fin cfg1.N) (p : Fin 2000) (hr : 2000 * t.val + p.val < 100000) (k : Fin 64) :
    (iblk1 (F := Ideal) V c 0 t : S2000x64.Idx → EReal) (ix2 p k)
      = (V c main_v14 : S100000x64.Idx → EReal) (ix2 (⟨2000 * t.val + p.val, hr⟩ : Fin 100000) k) := by
  obtain ⟨e0, e1, -, -, -, -, -, -, -, -, e6, -⟩ := block_indices t
  show V c main_v14 (((cfg1.win 0).blk t).view.emb (ix2 p k)) = V c main_v14 _
  refine congrArg (V c main_v14) ?_
  funext a; apply Fin.ext
  match a with
  | ⟨0, _⟩ => show win1_0.index t (0 : Fin 2) * 2000 + 1 * p.val = 2000 * t.val + p.val; omega
  | ⟨1, _⟩ => show win1_0.index t (1 : Fin 2) * 64 + 1 * k.val = k.val; omega

/-- Row p of the second input's block at point t is row 2000 t + p of its array. -/
theorem second_rows (c : Dev nD) (t : Fin cfg1.N) (p : Fin 2000) (hr : 2000 * t.val + p.val < 100000) (k : Fin 128) :
    (iblk1 (F := Ideal) V c 1 t : S2000x128.Idx → EReal) (ix2 p k)
      = (V c main_v15 : S100000x128.Idx → EReal) (ix2 (⟨2000 * t.val + p.val, hr⟩ : Fin 100000) k) := by
  obtain ⟨-, -, e0, e1, -, -, -, -, -, -, e6, -⟩ := block_indices t
  show V c main_v15 (((cfg1.win 1).blk t).view.emb (ix2 p k)) = V c main_v15 _
  refine congrArg (V c main_v15) ?_
  funext a; apply Fin.ext
  match a with
  | ⟨0, _⟩ => show win1_1.index t (0 : Fin 2) * 2000 + 1 * p.val = 2000 * t.val + p.val; omega
  | ⟨1, _⟩ => show win1_1.index t (1 : Fin 2) * 128 + 1 * k.val = k.val; omega

/-- Entry (p, q) of the output block at point t sits at (2000 t + p, q) of the output array. -/
theorem out_rows (t : Fin cfg1.N) (p : Fin 2000) (hr : 2000 * t.val + p.val < 100000) (q : Fin 128) :
    ((cfg1.win 6).blk t).view.emb (ix2 p q) = ix2 (⟨2000 * t.val + p.val, hr⟩ : Fin 100000) q := by
  obtain ⟨-, -, -, -, -, -, -, -, -, -, e0, e1, -⟩ := block_indices t
  funext a; apply Fin.ext
  match a with
  | ⟨0, _⟩ => show win1_6.index t (0 : Fin 2) * 2000 + 1 * p.val = 2000 * t.val + p.val; omega
  | ⟨1, _⟩ => show win1_6.index t (1 : Fin 2) * 128 + 1 * q.val = q.val; omega

/-- What point t writes back is block t of the tower of the whole arrays. -/
theorem written_block (c : Dev nD) (t : Fin cfg1.N) :
    (dat1 (F := Ideal) V c).flushed 6 t
      = ((cfg1.win 6).blk t).view.read (Elt Ideal)
          (Cert.Tower.arr (N := 100000) (A := 64) (B := 128) (K := 192) rfl (V c main_v14) (V c main_v15) (V c main_arg7)
          (V c main_arg8) (V c main_arg9) (V c main_arg10)) := by
  show (cfg1.win 6).cut (grid1.coords t) ((dat1 (F := Ideal) V c).after 6 t) = _
  rw [after1_6]
  unfold out1_6
  rw [View.canon_unit_zero origin2]
  simp only [View.ld_unit_zero (S := S2000x64) origin2, View.ld_unit_zero (S := S2000x128) origin2,
    View.ld_unit_zero (S := S192x256) origin2, View.ld_unit_zero (S := S256) origin1,
    View.ld_unit_zero (S := S256x128) origin2, View.ld_unit_zero (S := S128) origin1]
  rw [UserBody.pay_eq]
  funext y
  obtain ⟨p, q, rfl⟩ : ∃ (p : Fin 2000) (q : Fin 128), y = ix2 p q := ⟨y 0, y 1, eq_ix2 y⟩
  have hr : 2000 * t.val + p.val < 100000 := by
    have ht := (block_indices t).2.2.2.2.2.2.2.2.2.2.2.2
    have hp := p.isLt
    omega
  show Cert.Tower.arr (N := 2000) (A := 64) (B := 128) (K := 192) rfl (iblk1 (F := Ideal) V c 0 t) (iblk1 (F := Ideal) V c 1 t)
        (iblk1 (F := Ideal) V c 2 t) (iblk1 (F := Ideal) V c 3 t) (iblk1 (F := Ideal) V c 4 t) (iblk1 (F := Ideal) V c 5 t) (ix2 p q)
      = (Cert.Tower.arr (N := 100000) (A := 64) (B := 128) (K := 192) rfl (V c main_v14) (V c main_v15) (V c main_arg7)
          (V c main_arg8) (V c main_arg9) (V c main_arg10)) (((cfg1.win 6).blk t).view.emb (ix2 p q))
  refine (row_of_block (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t)
    (V c main_v14) (V c main_v15) (V c main_arg7) (V c main_arg8) (V c main_arg9) (V c main_arg10)
    (weights1_whole V c t) (bias1_whole V c t) (weights2_whole V c t) (bias2_whole V c t)
    p ⟨2000 * t.val + p.val, hr⟩ q (first_rows V c t p hr) (second_rows V c t p hr)).trans ?_
  exact congrArg (Cert.Tower.arr (N := 100000) (A := 64) (B := 128) (K := 192) rfl (V c main_v14) (V c main_v15) (V c main_arg7)
          (V c main_arg8) (V c main_arg9) (V c main_arg10)) (out_rows t p hr q).symm

/-- An index of the output array is in point t's block iff each coordinate is in the block's range on its axis. -/
theorem mem_block (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v16).slice (win1_6.rect t)).set ↔ _
  rw [View.set_slice_whole, Rect.mem_set_unit]
  exact Iff.rfl

/-- Row r of the output array is written by point r / 2000: the fifty blocks cover the array. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 2000 < cfg1.N := by
    show (i 0).val / 2000 < grid1.N
    rw [N_1]; omega
  obtain ⟨t, ht⟩ : ∃ t : Fin cfg1.N, t.val = (i 0).val / 2000 := ⟨⟨(i 0).val / 2000, hN⟩, rfl⟩
  obtain ⟨-, -, -, -, -, -, -, -, -, -, e0, e1, -⟩ := block_indices t
  refine ⟨t, flush1_6 t, ?_⟩
  rw [mem_block]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- Whatever the region finds in its arrays (V), it leaves the tower of the six input arrays in its output array. -/
theorem user_array (c : Dev nD) :
    (dat1 (F := Ideal) V c).arrAt 6 cfg1.N
      = Cert.Tower.arr (N := 100000) (A := 64) (B := 128) (K := 192) rfl (V c main_v14) (V c main_v15) (V c main_arg7)
          (V c main_arg8) (V c main_arg9) (V c main_arg10) := by
  exact (dat1 (F := Ideal) V c).arrAt_eq_of_cover 6
    (Cert.Tower.arr (N := 100000) (A := 64) (B := 128) (K := 192) rfl (V c main_v14) (V c main_v15) (V c main_arg7)
          (V c main_arg8) (V c main_arg9) (V c main_arg10))
    (fun t _ => written_block V c t) covered

end Cert.KernelIdeal.UserArray

end
-- ==== Proof.ItemRef.lean ====
/-
  The reference's item embedding (its stage main_v17) is the two-layer tower (Tower.arr) of the six argument arrays:
  read index by index through the generated stage lemmas, the host's dot_general is the sum over the contracted axis,
  its reduce the sum over the row, and relu the maximum with zero.
-/
import proofs.«427121_j65506841198654_1_alg».proof.Proof.Gen.ReferenceIdeal.Read
import proofs.«427121_j65506841198654_1_alg».proof.Proof.Tower
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.ItemRef

open Cert.ReferenceIdeal Cert.ReferenceIdeal.Gen Cert.ReferenceIdeal.Read Idealize.ShloMosaic Idealize.ShloMosaic.ValueIdx

/-- Input row r of the item tower: row r of the first argument beside row r of the second. -/
abbrev xrow (x0 : (⟨S200000x2, .f32⟩ : BufTy).Contents (Elt Ideal)) (x1 : (⟨S200000x64, .f32⟩ : BufTy).Contents (Elt Ideal)) (r : Fin 200000) :
    Fin 66 → EReal :=
  Cert.Tower.cat (A := 2) (B := 64) (K := 66) rfl (fun k => x0 (ix2 r k)) (fun k => x1 (ix2 r k))

/-- The joined array at (r, k) is entry k of the joined row r: the first piece for k < 2, the second, shifted by 2, otherwise. -/
theorem v0_at (x0 : (⟨S200000x2, .f32⟩ : BufTy).Contents (Elt Ideal)) (x1 : (⟨S200000x64, .f32⟩ : BufTy).Contents (Elt Ideal))
    (r : Fin 200000) (k : Fin 66) :
    val_main_v0 (F := Ideal) x0 x1 (ix2 r k) = xrow x0 x1 r k := by
  unfold val_main_v0 xrow Cert.Tower.cat
  by_cases h : k.val < 2
  · rw [dif_pos h]
    exact concatenate_pair_apply_left (1 : Fin S200000x66.rank) x0 x1 concatenates_S200000x2_S200000x64_S200000x66_d1 (ix2 r k) rfl
      (ix2 r ⟨k.val, h⟩) (fun b => by match b with | ⟨0, _⟩ => rfl | ⟨1, _⟩ => rfl)
  · rw [dif_neg h]
    exact concatenate_pair_apply_right (1 : Fin S200000x66.rank) x0 x1 concatenates_S200000x2_S200000x64_S200000x66_d1 (ix2 r k) rfl rfl
      (ix2 r ⟨k.val - 2, by have := k.isLt; omega⟩)
      (fun b hb => by match b, hb with | ⟨0, _⟩, _ => rfl | ⟨1, _⟩, hb => exact absurd rfl hb)
      (by show (k.val - 2) + 2 = k.val; omega)

/-- The first product at (r, j): the joined row against column j of the first weight. -/
theorem v1_at (x0 : (⟨S200000x2, .f32⟩ : BufTy).Contents (Elt Ideal)) (x1 : (⟨S200000x64, .f32⟩ : BufTy).Contents (Elt Ideal)) (x3 : (⟨S66x256, .f32⟩ : BufTy).Contents (Elt Ideal))
    (r : Fin 200000) (j : Fin 256) :
    val_main_v1 (F := Ideal) x0 x1 x3 (ix2 r j) = ∑ k : Fin 66, xrow x0 x1 r k * x3 (ix2 k j) := by
  rw [val_main_v1_apply]
  refine Finset.sum_congr rfl fun k _ => ?_
  have el : lidx_main_v1 (ix2 r j) k = ix2 r k := funext fun a => Fin.ext (by match a with | ⟨0, _⟩ => rfl | ⟨1, _⟩ => rfl)
  have er : ridx_main_v1 (ix2 r j) k = ix2 k j := funext fun a => Fin.ext (by match a with | ⟨0, _⟩ => rfl | ⟨1, _⟩ => rfl)
  rw [el, er, v0_at]

/-- The first bias, spread over the rows, at (r, j). -/
theorem v3_at (x4 : (⟨S256, .f32⟩ : BufTy).Contents (Elt Ideal)) (r : Fin 200000) (j : Fin 256) :
    val_main_v3 (F := Ideal) x4 (ix2 r j) = x4 (ix1 j) := by
  rw [val_main_v3_apply, val_main_v2_apply]
  exact congrArg x4 (funext fun a => Fin.ext (by match a with | ⟨0, _⟩ => rfl))

/-- The hidden layer at (r, j). -/
theorem v5_at (x0 : (⟨S200000x2, .f32⟩ : BufTy).Contents (Elt Ideal)) (x1 : (⟨S200000x64, .f32⟩ : BufTy).Contents (Elt Ideal)) (x3 : (⟨S66x256, .f32⟩ : BufTy).Contents (Elt Ideal))
    (x4 : (⟨S256, .f32⟩ : BufTy).Contents (Elt Ideal)) (r : Fin 200000) (j : Fin 256) :
    val_main_v5 (F := Ideal) x0 x1 x3 x4 (ix2 r j)
      = Cert.Tower.hid (xrow x0 x1 r) (fun k j => x3 (ix2 k j)) (fun j => x4 (ix1 j)) j := by
  rw [val_main_v5_apply, val_main_v4_apply, v1_at, v3_at, val_main_call0_v0_apply, val_main_call0_cst_apply]
  rfl

/-- The second product at (r, q): the hidden row against column q of the second weight. -/
theorem v6_at (x0 : (⟨S200000x2, .f32⟩ : BufTy).Contents (Elt Ideal)) (x1 : (⟨S200000x64, .f32⟩ : BufTy).Contents (Elt Ideal)) (x3 : (⟨S66x256, .f32⟩ : BufTy).Contents (Elt Ideal))
    (x4 : (⟨S256, .f32⟩ : BufTy).Contents (Elt Ideal)) (x5 : (⟨S256x128, .f32⟩ : BufTy).Contents (Elt Ideal))
    (r : Fin 200000) (q : Fin 128) :
    val_main_v6 (F := Ideal) x0 x1 x3 x4 x5 (ix2 r q)
      = ∑ j : Fin 256, Cert.Tower.hid (xrow x0 x1 r) (fun k j => x3 (ix2 k j)) (fun j => x4 (ix1 j)) j * x5 (ix2 j q) := by
  rw [val_main_v6_apply]
  refine Finset.sum_congr rfl fun j _ => ?_
  have el : lidx_main_v6 (ix2 r q) j = ix2 r j := funext fun a => Fin.ext (by match a with | ⟨0, _⟩ => rfl | ⟨1, _⟩ => rfl)
  have er : ridx_main_v6 (ix2 r q) j = ix2 j q := funext fun a => Fin.ext (by match a with | ⟨0, _⟩ => rfl | ⟨1, _⟩ => rfl)
  rw [el, er, v5_at]

/-- The second bias, spread over the rows, at (r, q). -/
theorem v8_at (x6 : (⟨S128, .f32⟩ : BufTy).Contents (Elt Ideal)) (r : Fin 200000) (q : Fin 128) :
    val_main_v8 (F := Ideal) x6 (ix2 r q) = x6 (ix1 q) := by
  rw [val_main_v8_apply, val_main_v7_apply]
  exact congrArg x6 (funext fun a => Fin.ext (by match a with | ⟨0, _⟩ => rfl))

/-- The output layer at (r, q). -/
theorem v9_at (x0 : (⟨S200000x2, .f32⟩ : BufTy).Contents (Elt Ideal)) (x1 : (⟨S200000x64, .f32⟩ : BufTy).Contents (Elt Ideal)) (x3 : (⟨S66x256, .f32⟩ : BufTy).Contents (Elt Ideal))
    (x4 : (⟨S256, .f32⟩ : BufTy).Contents (Elt Ideal)) (x5 : (⟨S256x128, .f32⟩ : BufTy).Contents (Elt Ideal)) (x6 : (⟨S128, .f32⟩ : BufTy).Contents (Elt Ideal))
    (r : Fin 200000) (q : Fin 128) :
    val_main_v9 (F := Ideal) x0 x1 x3 x4 x5 x6 (ix2 r q)
      = Cert.Tower.lin (xrow x0 x1 r) (fun k j => x3 (ix2 k j)) (fun j => x4 (ix1 j)) (fun j q => x5 (ix2 j q)) (fun q => x6 (ix1 q)) q := by
  rw [val_main_v9_apply, v6_at, v8_at]
  rfl

/-- The sum of squares of output row r. -/
theorem v11_at (x0 : (⟨S200000x2, .f32⟩ : BufTy).Contents (Elt Ideal)) (x1 : (⟨S200000x64, .f32⟩ : BufTy).Contents (Elt Ideal)) (x3 : (⟨S66x256, .f32⟩ : BufTy).Contents (Elt Ideal))
    (x4 : (⟨S256, .f32⟩ : BufTy).Contents (Elt Ideal)) (x5 : (⟨S256x128, .f32⟩ : BufTy).Contents (Elt Ideal)) (x6 : (⟨S128, .f32⟩ : BufTy).Contents (Elt Ideal))
    (r : Fin 200000) :
    val_main_v11 (F := Ideal) x0 x1 x3 x4 x5 x6 (ix1 r)
      = ∑ q' : Fin 128, Cert.Tower.lin (xrow x0 x1 r) (fun k j => x3 (ix2 k j)) (fun j => x4 (ix1 j)) (fun j q => x5 (ix2 j q)) (fun q => x6 (ix1 q)) q'
          * Cert.Tower.lin (xrow x0 x1 r) (fun k j => x3 (ix2 k j)) (fun j => x4 (ix1 j)) (fun j q => x5 (ix2 j q)) (fun q => x6 (ix1 q)) q' := by
  rw [val_main_v11_apply, val_main_cst_apply, Ideal.ofBits_def, Ideal.ofBits_zero_f32, zero_add]
  refine Finset.sum_congr rfl fun q' _ => ?_
  have e : idx_main_v11 (ix1 r) q' = ix2 r q' := funext fun a => Fin.ext (by match a with | ⟨0, _⟩ => rfl | ⟨1, _⟩ => rfl)
  rw [e, val_main_v10_apply, v9_at]
  rfl

/-- The divisor at (r, q): the larger of the row's Euclidean norm and ε. -/
theorem v16_at (x0 : (⟨S200000x2, .f32⟩ : BufTy).Contents (Elt Ideal)) (x1 : (⟨S200000x64, .f32⟩ : BufTy).Contents (Elt Ideal)) (x3 : (⟨S66x256, .f32⟩ : BufTy).Contents (Elt Ideal))
    (x4 : (⟨S256, .f32⟩ : BufTy).Contents (Elt Ideal)) (x5 : (⟨S256x128, .f32⟩ : BufTy).Contents (Elt Ideal)) (x6 : (⟨S128, .f32⟩ : BufTy).Contents (Elt Ideal))
    (r : Fin 200000) (q : Fin 128) :
    val_main_v16 (F := Ideal) x0 x1 x3 x4 x5 x6 (ix2 r q)
      = max (Ideal.sqrt (∑ q' : Fin 128, Cert.Tower.lin (xrow x0 x1 r) (fun k j => x3 (ix2 k j)) (fun j => x4 (ix1 j)) (fun j q => x5 (ix2 j q)) (fun q => x6 (ix1 q)) q'
          * Cert.Tower.lin (xrow x0 x1 r) (fun k j => x3 (ix2 k j)) (fun j => x4 (ix1 j)) (fun j q => x5 (ix2 j q)) (fun q => x6 (ix1 q)) q'))
          (Ideal.ofBits .f32 0x2B8CBCCC#32) := by
  have e : idx_main_v12 (idx_main_v16 (ix2 r q)) = ix1 r := funext fun a => Fin.ext (by match a with | ⟨0, _⟩ => rfl)
  rw [val_main_v16_apply, val_main_v15_apply, val_main_v13_apply, val_main_v12_apply, e, v11_at, val_main_v14_apply, val_main_cst_0_apply]
  rfl

/-- The item embedding at (r, q) is row r of the tower at q. -/
theorem v17_at (x0 : (⟨S200000x2, .f32⟩ : BufTy).Contents (Elt Ideal)) (x1 : (⟨S200000x64, .f32⟩ : BufTy).Contents (Elt Ideal)) (x3 : (⟨S66x256, .f32⟩ : BufTy).Contents (Elt Ideal))
    (x4 : (⟨S256, .f32⟩ : BufTy).Contents (Elt Ideal)) (x5 : (⟨S256x128, .f32⟩ : BufTy).Contents (Elt Ideal)) (x6 : (⟨S128, .f32⟩ : BufTy).Contents (Elt Ideal))
    (r : Fin 200000) (q : Fin 128) :
    val_main_v17 (F := Ideal) x0 x1 x3 x4 x5 x6 (ix2 r q)
      = Cert.Tower.row (xrow x0 x1 r) (fun k j => x3 (ix2 k j)) (fun j => x4 (ix1 j)) (fun j q => x5 (ix2 j q)) (fun q => x6 (ix1 q)) q := by
  rw [val_main_v17_apply, v9_at, v16_at]
  rfl

/-- The reference's item embedding is the tower of the arguments: 200000 rows, pieces of 2 and 64 columns. -/
theorem item_eq (x0 : (⟨S200000x2, .f32⟩ : BufTy).Contents (Elt Ideal)) (x1 : (⟨S200000x64, .f32⟩ : BufTy).Contents (Elt Ideal)) (x3 : (⟨S66x256, .f32⟩ : BufTy).Contents (Elt Ideal))
    (x4 : (⟨S256, .f32⟩ : BufTy).Contents (Elt Ideal)) (x5 : (⟨S256x128, .f32⟩ : BufTy).Contents (Elt Ideal)) (x6 : (⟨S128, .f32⟩ : BufTy).Contents (Elt Ideal)) :
    val_main_v17 (F := Ideal) x0 x1 x3 x4 x5 x6
      = Cert.Tower.arr (N := 200000) (A := 2) (B := 64) (K := 66) rfl x0 x1 x3 x4 x5 x6 := by
  funext i
  obtain ⟨r, q, rfl⟩ : ∃ (r : Fin 200000) (q : Fin 128), i = ix2 r q := ⟨i 0, i 1, eq_ix2 i⟩
  rw [Cert.Tower.arr_apply, v17_at]
  rfl

end Cert.ReferenceIdeal.ItemRef

end
-- ==== Proof.UserRef.lean ====
/-
  The reference's result (its stage main_v68) is the two-layer tower (Tower.arr) of the two gathered arrays
  (the stages main_v43 and main_v50, kept as they are) and the four user-tower weights.
-/
import proofs.«427121_j65506841198654_1_alg».proof.Proof.Gen.ReferenceIdeal.Read
import proofs.«427121_j65506841198654_1_alg».proof.Proof.Tower
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.UserRef

open Cert.ReferenceIdeal Cert.ReferenceIdeal.Gen Cert.ReferenceIdeal.Read Idealize.ShloMosaic Idealize.ShloMosaic.ValueIdx

section Levels

variable (x0 : (⟨S200000x2, .f32⟩ : BufTy).Contents (Elt Ideal)) (x1 : (⟨S200000x64, .f32⟩ : BufTy).Contents (Elt Ideal)) (x2 : (⟨S100000x64, .f32⟩ : BufTy).Contents (Elt Ideal)) (x3 : (⟨S66x256, .f32⟩ : BufTy).Contents (Elt Ideal))
  (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S192x256, .f32⟩ : BufTy).Contents (Elt Ideal))
  (x8 : (⟨S256, .f32⟩ : BufTy).Contents (Elt Ideal)) (x9 : (⟨S256x128, .f32⟩ : BufTy).Contents (Elt Ideal)) (x10 : (⟨S128, .f32⟩ : BufTy).Contents (Elt Ideal))
  (x11 x12 : (⟨S2000000, .i32⟩ : BufTy).Contents (Elt Ideal)) (x13 : (⟨S100000, .i32⟩ : BufTy).Contents (Elt Ideal))

/-- Input row r of the user tower: row r of the gathered user features beside row r of the gathered history. -/
abbrev urow (r : Fin 100000) : Fin 192 → EReal :=
  Cert.Tower.cat (A := 64) (B := 128) (K := 192) rfl
    (fun k => val_main_v43 (F := Ideal) x2 x13 (ix2 r k))
    (fun k => val_main_v50 (F := Ideal) x0 x1 x3 x4 x5 x6 x11 x12 x13 (ix2 r k))

/-- The joined array at (r, k) is entry k of the joined row r: the first piece for k < 64, the second, shifted by 64, otherwise. -/
theorem v51_at (r : Fin 100000) (k : Fin 192) :
    val_main_v51 (F := Ideal) x0 x1 x2 x3 x4 x5 x6 x11 x12 x13 (ix2 r k) = urow x0 x1 x2 x3 x4 x5 x6 x11 x12 x13 r k := by
  unfold val_main_v51 urow Cert.Tower.cat
  generalize val_main_v43 (F := Ideal) x2 x13 = u
  generalize val_main_v50 (F := Ideal) x0 x1 x3 x4 x5 x6 x11 x12 x13 = v
  by_cases h : k.val < 64
  · rw [dif_pos h]
    exact concatenate_pair_apply_left (1 : Fin S100000x192.rank) u v concatenates_S100000x64_S100000x128_S100000x192_d1 (ix2 r k) rfl
      (ix2 r ⟨k.val, h⟩) (fun b => by match b with | ⟨0, _⟩ => rfl | ⟨1, _⟩ => rfl)
  · rw [dif_neg h]
    exact concatenate_pair_apply_right (1 : Fin S100000x192.rank) u v concatenates_S100000x64_S100000x128_S100000x192_d1 (ix2 r k) rfl rfl
      (ix2 r ⟨k.val - 64, by have := k.isLt; omega⟩)
      (fun b hb => by match b, hb with | ⟨0, _⟩, _ => rfl | ⟨1, _⟩, hb => exact absurd rfl hb)
      (by show (k.val - 64) + 64 = k.val; omega)

/-- The first product at (r, j): the joined row against column j of the first weight. -/
theorem v52_at (r : Fin 100000) (j : Fin 256) :
    val_main_v52 (F := Ideal) x0 x1 x2 x3 x4 x5 x6 x7 x11 x12 x13 (ix2 r j) = ∑ k : Fin 192, urow x0 x1 x2 x3 x4 x5 x6 x11 x12 x13 r k * x7 (ix2 k j) := by
  rw [val_main_v52_apply]
  refine Finset.sum_congr rfl fun k _ => ?_
  have el : lidx_main_v52 (ix2 r j) k = ix2 r k := funext fun a => Fin.ext (by match a with | ⟨0, _⟩ => rfl | ⟨1, _⟩ => rfl)
  have er : ridx_main_v52 (ix2 r j) k = ix2 k j := funext fun a => Fin.ext (by match a with | ⟨0, _⟩ => rfl | ⟨1, _⟩ => rfl)
  rw [el, er, v51_at]

/-- The first bias, spread over the rows, at (r, j). -/
theorem v54_at (r : Fin 100000) (j : Fin 256) :
    val_main_v54 (F := Ideal) x8 (ix2 r j) = x8 (ix1 j) := by
  rw [val_main_v54_apply, val_main_v53_apply]
  exact congrArg x8 (funext fun a => Fin.ext (by match a with | ⟨0, _⟩ => rfl))

/-- The hidden layer at (r, j). -/
theorem v56_at (r : Fin 100000) (j : Fin 256) :
    val_main_v56 (F := Ideal) x0 x1 x2 x3 x4 x5 x6 x7 x8 x11 x12 x13 (ix2 r j) = Cert.Tower.hid (urow x0 x1 x2 x3 x4 x5 x6 x11 x12 x13 r) (fun k j => x7 (ix2 k j)) (fun j => x8 (ix1 j)) j := by
  rw [val_main_v56_apply, val_main_v55_apply, v52_at, v54_at, val_main_call1_v0_apply, val_main_call1_cst_apply]
  rfl

/-- The second product at (r, q): the hidden row against column q of the second weight. -/
theorem v57_at (r : Fin 100000) (q : Fin 128) :
    val_main_v57 (F := Ideal) x0 x1 x2 x3 x4 x5 x6 x7 x8 x9 x11 x12 x13 (ix2 r q) = ∑ j : Fin 256, Cert.Tower.hid (urow x0 x1 x2 x3 x4 x5 x6 x11 x12 x13 r) (fun k j => x7 (ix2 k j)) (fun j => x8 (ix1 j)) j * x9 (ix2 j q) := by
  rw [val_main_v57_apply]
  refine Finset.sum_congr rfl fun j _ => ?_
  have el : lidx_main_v57 (ix2 r q) j = ix2 r j := funext fun a => Fin.ext (by match a with | ⟨0, _⟩ => rfl | ⟨1, _⟩ => rfl)
  have er : ridx_main_v57 (ix2 r q) j = ix2 j q := funext fun a => Fin.ext (by match a with | ⟨0, _⟩ => rfl | ⟨1, _⟩ => rfl)
  rw [el, er, v56_at]

/-- The second bias, spread over the rows, at (r, q). -/
theorem v59_at (r : Fin 100000) (q : Fin 128) :
    val_main_v59 (F := Ideal) x10 (ix2 r q) = x10 (ix1 q) := by
  rw [val_main_v59_apply, val_main_v58_apply]
  exact congrArg x10 (funext fun a => Fin.ext (by match a with | ⟨0, _⟩ => rfl))

/-- The output layer at (r, q). -/
theorem v60_at (r : Fin 100000) (q : Fin 128) :
    val_main_v60 (F := Ideal) x0 x1 x2 x3 x4 x5 x6 x7 x8 x9 x10 x11 x12 x13 (ix2 r q) = Cert.Tower.lin (urow x0 x1 x2 x3 x4 x5 x6 x11 x12 x13 r) (fun k j => x7 (ix2 k j)) (fun j => x8 (ix1 j)) (fun j q => x9 (ix2 j q)) (fun q => x10 (ix1 q)) q := by
  rw [val_main_v60_apply, v57_at, v59_at]
  rfl

/-- The sum of squares of output row r. -/
theorem v62_at (r : Fin 100000) :
    val_main_v62 (F := Ideal) x0 x1 x2 x3 x4 x5 x6 x7 x8 x9 x10 x11 x12 x13 (ix1 r)
      = ∑ q' : Fin 128, Cert.Tower.lin (urow x0 x1 x2 x3 x4 x5 x6 x11 x12 x13 r) (fun k j => x7 (ix2 k j)) (fun j => x8 (ix1 j)) (fun j q => x9 (ix2 j q)) (fun q => x10 (ix1 q)) q' * Cert.Tower.lin (urow x0 x1 x2 x3 x4 x5 x6 x11 x12 x13 r) (fun k j => x7 (ix2 k j)) (fun j => x8 (ix1 j)) (fun j q => x9 (ix2 j q)) (fun q => x10 (ix1 q)) q' := by
  rw [val_main_v62_apply, val_main_cst_10_apply, Ideal.ofBits_def, Ideal.ofBits_zero_f32, zero_add]
  refine Finset.sum_congr rfl fun q' _ => ?_
  have e : idx_main_v62 (ix1 r) q' = ix2 r q' := funext fun a => Fin.ext (by match a with | ⟨0, _⟩ => rfl | ⟨1, _⟩ => rfl)
  rw [e, val_main_v61_apply, v60_at]
  rfl

/-- The divisor at (r, q): the larger of the row's Euclidean norm and ε. -/
theorem v67_at (r : Fin 100000) (q : Fin 128) :
    val_main_v67 (F := Ideal) x0 x1 x2 x3 x4 x5 x6 x7 x8 x9 x10 x11 x12 x13 (ix2 r q)
      = max (Ideal.sqrt (∑ q' : Fin 128, Cert.Tower.lin (urow x0 x1 x2 x3 x4 x5 x6 x11 x12 x13 r) (fun k j => x7 (ix2 k j)) (fun j => x8 (ix1 j)) (fun j q => x9 (ix2 j q)) (fun q => x10 (ix1 q)) q' * Cert.Tower.lin (urow x0 x1 x2 x3 x4 x5 x6 x11 x12 x13 r) (fun k j => x7 (ix2 k j)) (fun j => x8 (ix1 j)) (fun j q => x9 (ix2 j q)) (fun q => x10 (ix1 q)) q')) (Ideal.ofBits .f32 0x2B8CBCCC#32) := by
  have e : idx_main_v63 (idx_main_v67 (ix2 r q)) = ix1 r := funext fun a => Fin.ext (by match a with | ⟨0, _⟩ => rfl)
  rw [val_main_v67_apply, val_main_v66_apply, val_main_v64_apply, val_main_v63_apply, e, v62_at, val_main_v65_apply, val_main_cst_11_apply]
  rfl

/-- The result at (r, q) is row r of the tower at q. -/
theorem v68_at (r : Fin 100000) (q : Fin 128) :
    val_main_v68 (F := Ideal) x0 x1 x2 x3 x4 x5 x6 x7 x8 x9 x10 x11 x12 x13 (ix2 r q) = Cert.Tower.row (urow x0 x1 x2 x3 x4 x5 x6 x11 x12 x13 r) (fun k j => x7 (ix2 k j)) (fun j => x8 (ix1 j)) (fun j q => x9 (ix2 j q)) (fun q => x10 (ix1 q)) q := by
  rw [val_main_v68_apply, v60_at, v67_at]
  rfl

end Levels

/-- The reference's result is the tower of the gathered user rows beside the gathered history rows: 100000 rows, pieces of 64 and 128 columns. -/
theorem user_eq (x0 : (⟨S200000x2, .f32⟩ : BufTy).Contents (Elt Ideal)) (x1 : (⟨S200000x64, .f32⟩ : BufTy).Contents (Elt Ideal)) (x2 : (⟨S100000x64, .f32⟩ : BufTy).Contents (Elt Ideal)) (x3 : (⟨S66x256, .f32⟩ : BufTy).Contents (Elt Ideal))
    (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S192x256, .f32⟩ : BufTy).Contents (Elt Ideal))
    (x8 : (⟨S256, .f32⟩ : BufTy).Contents (Elt Ideal)) (x9 : (⟨S256x128, .f32⟩ : BufTy).Contents (Elt Ideal)) (x10 : (⟨S128, .f32⟩ : BufTy).Contents (Elt Ideal))
    (x11 x12 : (⟨S2000000, .i32⟩ : BufTy).Contents (Elt Ideal)) (x13 : (⟨S100000, .i32⟩ : BufTy).Contents (Elt Ideal)) :
    val_main_v68 (F := Ideal) x0 x1 x2 x3 x4 x5 x6 x7 x8 x9 x10 x11 x12 x13
      = Cert.Tower.arr (N := 100000) (A := 64) (B := 128) (K := 192) rfl (val_main_v43 (F := Ideal) x2 x13)
          (val_main_v50 (F := Ideal) x0 x1 x3 x4 x5 x6 x11 x12 x13) x7 x8 x9 x10 := by
  funext i
  obtain ⟨r, q, rfl⟩ : ∃ (r : Fin 100000) (q : Fin 128), i = ix2 r q := ⟨i 0, i 1, eq_ix2 i⟩
  rw [Cert.Tower.arr_apply, v68_at]
  rfl

end Cert.ReferenceIdeal.UserRef

end
-- ==== Proof.Result.lean ====
/-
  The kernel's result array, after its run, is the reference's function of the launch arrays.
  The second region leaves the tower of what it finds; what it finds are the weights as launched, the user embeddings
  gathered at the user indices, and the history gathered at the user indices; the history is the segment mean of the item
  embedding gathered at the item indices, and the item embedding is the first region's tower of the launch arrays.
  With every index in range each take is the plain gather, which is what the reference computes at every step.
-/
import proofs.«427121_j65506841198654_1_alg».proof.Defs
import proofs.«427121_j65506841198654_1_alg».proof.Proof.Gen.Pre_finite_inputs
import proofs.«427121_j65506841198654_1_alg».proof.Proof.PreDecode
import proofs.«427121_j65506841198654_1_alg».proof.Proof.Walk
import proofs.«427121_j65506841198654_1_alg».proof.Proof.Middle
import proofs.«427121_j65506841198654_1_alg».proof.Proof.Stretches
import proofs.«427121_j65506841198654_1_alg».proof.Proof.RefChain
import proofs.«427121_j65506841198654_1_alg».proof.Proof.ItemArray
import proofs.«427121_j65506841198654_1_alg».proof.Proof.UserArray
import proofs.«427121_j65506841198654_1_alg».proof.Proof.ItemRef
import proofs.«427121_j65506841198654_1_alg».proof.Proof.UserRef

set_option maxRecDepth 16384

noncomputable section

namespace Cert.KernelIdeal.Result

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- What the first region leaves in its output array is the reference's item embedding of the launch arrays. -/
theorem item_emb (c : Dev nD) :
    W1 m ρ c (Proc.devRef .tc main_v0)
      = Cert.ReferenceIdeal.Read.val_main_v17 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [Cert.KernelIdeal.Walk.W1_v0, Cert.KernelIdeal.ItemArray.item_array (V0 m ρ) c, Cert.ReferenceIdeal.ItemRef.item_eq]

/-- The gathered user embeddings the second region finds are the reference's. -/
theorem users64 (c : Dev nD) (hU0 : ∀ i, IntOp.cmpi .sge ((m ((c : Thread nD τ).loc main_arg13)) i) 0#32 = 1#1) (hU1 : ∀ i, IntOp.cmpi .slt ((m ((c : Thread nD τ).loc main_arg13)) i) 100000#32 = 1#1) :
    V5 m ρ c main_v14 = Cert.ReferenceIdeal.Read.val_main_v43 (F := Ideal) (m ((c : Thread nD τ).loc main_arg2)) (m ((c : Thread nD τ).loc main_arg13)) := by
  refine (Cert.KernelIdeal.Walk.W5_v14 m ρ c).trans ((Cert.KernelIdeal.Stretches.stretch_users64 (W3 m ρ c)).trans ?_)
  rw [Cert.KernelIdeal.Walk.W3_arg2, Cert.KernelIdeal.Walk.W3_arg13, Cert.KernelIdeal.Middle.takeFillUsers64_eq _ _ hU0 hU1,
    Cert.KernelIdeal.RefChain.ref_users64]

/-- The gathered history the second region finds is the reference's. -/
theorem users128 (c : Dev nD) (hI0 : ∀ i, IntOp.cmpi .sge ((m ((c : Thread nD τ).loc main_arg11)) i) 0#32 = 1#1) (hI1 : ∀ i, IntOp.cmpi .slt ((m ((c : Thread nD τ).loc main_arg11)) i) 200000#32 = 1#1)
    (hU0 : ∀ i, IntOp.cmpi .sge ((m ((c : Thread nD τ).loc main_arg13)) i) 0#32 = 1#1) (hU1 : ∀ i, IntOp.cmpi .slt ((m ((c : Thread nD τ).loc main_arg13)) i) 100000#32 = 1#1) :
    V5 m ρ c main_v15 = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) := by
  refine (Cert.KernelIdeal.Stretches.stretch_users128 (W4 m ρ c)).trans ?_
  rw [Cert.KernelIdeal.Walk.W4_arg13, Cert.KernelIdeal.Walk.W4_v13, Cert.KernelIdeal.Middle.takeFillUsers128_eq _ _ hU0 hU1]
  rw [show W3 m ρ c (Proc.devRef .tc main_v13) = _ from Cert.KernelIdeal.Stretches.stretch_hist (W2 m ρ c)]
  rw [Cert.KernelIdeal.Walk.W2_arg12]
  rw [show W2 m ρ c (Proc.devRef .tc main_v1) = _ from Cert.KernelIdeal.Stretches.stretch_items (W1 m ρ c)]
  rw [Cert.KernelIdeal.Walk.W1_arg11, Cert.KernelIdeal.Middle.takeFillItems_eq _ _ hI0 hI1, item_emb m ρ c,
    Cert.KernelIdeal.RefChain.ref_users128]

/-- THE RESULT: under the precondition the kernel's result array ends at the reference's function of the launch arrays. -/
theorem result_eq (hpre : Cert.Pre_KernelIdeal m) (c : Dev nD) :
    W6 m ρ c (Proc.devRef .tc main_v16)
      = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨hI0, hI1, hU0, hU1⟩ := Cert.Pre_finite_inputs.Decode.ranges _ _ _ _ _ _ _ _ _ _ _ _ _ _ (hpre c)
  rw [Cert.KernelIdeal.Walk.W6_v16, Cert.KernelIdeal.UserArray.user_array (V5 m ρ) c, Cert.ReferenceIdeal.UserRef.user_eq,
    users64 m ρ c hU0 hU1, users128 m ρ c hI0 hI1 hU0 hU1]
  rw [show V5 m ρ c main_arg7 = _ from Cert.KernelIdeal.Walk.W5_arg7 m ρ c, show V5 m ρ c main_arg8 = _ from Cert.KernelIdeal.Walk.W5_arg8 m ρ c,
    show V5 m ρ c main_arg9 = _ from Cert.KernelIdeal.Walk.W5_arg9 m ρ c, show V5 m ρ c main_arg10 = _ from Cert.KernelIdeal.Walk.W5_arg10 m ρ c]

end Cert.KernelIdeal.Result

end
-- ==== Proof.lean ====
/-
  The certificate: the two-tower kernel (an item tower and a user tower as Pallas regions, with the ragged
  gather and segment mean between them as host operations) against its jnp reference, over the extended reals.
  At the extended reals the bf16 roundings are the identity, so each region computes, row block by row block, the same
  two-layer tower with row normalisation that the reference computes on whole arrays; the only difference between the
  two programs is that the kernel gathers with jnp.take (rows at out-of-range indices overwritten by a fill value) and
  the reference with x[idx] (start indices clamped), and the precondition keeps every index in range, where both are the
  plain gather. The frames of the two kernel programs are the generated frame certificates; the reference's frame is its
  generated run with the result dropped; the idealization rewrote nothing, so its conjunct is trivial.
-/
import proofs.«427121_j65506841198654_1_alg».proof.Defs
import proofs.«427121_j65506841198654_1_alg».proof.Proof.Gen.Kernel
import proofs.«427121_j65506841198654_1_alg».proof.Proof.Gen.Kernel.Frame
import proofs.«427121_j65506841198654_1_alg».proof.Proof.Gen.KernelIdeal
import proofs.«427121_j65506841198654_1_alg».proof.Proof.Gen.KernelIdeal.Frame
import proofs.«427121_j65506841198654_1_alg».proof.Proof.Gen.ReferenceIdeal
import proofs.«427121_j65506841198654_1_alg».proof.Proof.Gen.Pre_finite_inputs
import proofs.«427121_j65506841198654_1_alg».proof.Proof.Gen.ReferenceIdeal.Run
import proofs.«427121_j65506841198654_1_alg».proof.Proof.Gen.ReferenceIdeal.Read
import proofs.«427121_j65506841198654_1_alg».proof.Proof.KernelIdealRun
import proofs.«427121_j65506841198654_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's function of the (agreeing) launch arrays in their result array. -/
theorem algebraic : Cert.algebraic_KernelIdeal_ReferenceIdeal := by
  intro m ρ m' ρ' hpre hagree
  refine ⟨fun c => Cert.ReferenceIdeal.Read.val_main_v68 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Result.result_eq m ρ hpre c), (h c).2⟩)
      (Cert.KernelIdeal.ValueRun.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v68_eq]
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
